-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576x1 : Shape := ⟨2, ![1048576, 1]⟩
abbrev S128x128 : Shape := ⟨2, ![128, 128]⟩
abbrev S128 : Shape := ⟨1, ![128]⟩
abbrev S1048576 : Shape := ⟨1, ![1048576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S65536x128 .f32) (main_arg1 : FVec F S1048576x1 .f32) (main_arg2 : FVec F S128x128 .f32) (main_arg3 : FVec F S128 .f32) (main_arg4 : FVec F S128x128 .f32) (main_arg5 : FVec F S128 .f32) (main_arg6 : IVec S1048576 32) (main_arg7 : IVec S1048576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576x1 .f32 := Host.absf main_arg1
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S65536x128 : Shape := ⟨2, ![65536, 128]⟩
abbrev S1048576x1 : Shape := ⟨2, ![1048576, 1]⟩
abbrev S128x128 : Shape := ⟨2, ![128, 128]⟩
abbrev S128 : Shape := ⟨1, ![128]⟩
abbrev S1048576 : Shape := ⟨1, ![1048576]⟩
abbrev S_ : Shape := ⟨0, ![]⟩
abbrev S65536 : Shape := ⟨1, ![65536]⟩
abbrev S65536x1 : Shape := ⟨2, ![65536, 1]⟩
abbrev S4096x128 : Shape := ⟨2, ![4096, 128]⟩
abbrev S4096x1 : Shape := ⟨2, ![4096, 1]⟩
abbrev S1048576x128 : Shape := ⟨2, ![1048576, 128]⟩
abbrev S1x128 : Shape := ⟨2, ![1, 128]⟩
abbrev S8192x128 : Shape := ⟨2, ![8192, 128]⟩
abbrev S8192x1 : Shape := ⟨2, ![8192, 1]⟩

abbrev nBuf : Space → Nat
  | .hbm => 78
  | .vmem => 34
  | .smem => 0
  | _ => 0

abbrev bufTy : (tb : Table) → Fin (tcTables nBuf tb) → BufTy
  | .hbm, ⟨0, _⟩ => ⟨S65536x128, .f32⟩
  | .hbm, ⟨1, _⟩ => ⟨S1048576x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1048576, .i32⟩
  | .hbm, ⟨7, _⟩ => ⟨S1048576, .i32⟩
  | .hbm, ⟨8, _⟩ => ⟨S_, .f32⟩
  | .hbm, ⟨9, _⟩ => ⟨S1048576, .f32⟩
  | .hbm, ⟨10, _⟩ => ⟨S_, .f32⟩
  | .hbm, ⟨11, _⟩ => ⟨S65536, .f32⟩
  | .hbm, ⟨12, _⟩ => ⟨S1048576x1, .i32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S1048576x1, .i32⟩
  | .hbm, ⟨17, _⟩ => ⟨S65536, .f32⟩
  | .hbm, ⟨18, _⟩ => ⟨S_, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S_, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536x1, .f32⟩
  | .hbm, ⟨29, _⟩ => ⟨S65536x128, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S1048576x128, .f32⟩
  | .hbm, ⟨39, _⟩ => ⟨S_, .f32⟩
  | .hbm, ⟨40, _⟩ => ⟨S65536x128, .f32⟩
  | .hbm, ⟨41, _⟩ => ⟨S1048576x1, .i32⟩
  | .hbm, ⟨42, _⟩ => ⟨S65536x128, .f32⟩
  | .hbm, ⟨43, _⟩ => ⟨S65536x1, .f32⟩
  | .hbm, ⟨44, _⟩ => ⟨S1x128, .f32⟩
  | .hbm, ⟨45, _⟩ => ⟨S65536x128, .f32⟩
  | .hbm, ⟨46, _⟩ => ⟨S65536x1, .f32⟩
  | .hbm, ⟨47, _⟩ => ⟨S65536x128, .f32⟩
  | .hbm, ⟨48, _⟩ => ⟨S_, .i32⟩
  | .hbm, ⟨49, _⟩ => ⟨S1048576, .i32⟩
  | .hbm, ⟨50, _⟩ => ⟨S1048576, .i1⟩
  | .hbm, ⟨51, _⟩ => ⟨S_, .i32⟩
  | .hbm, ⟨52, _⟩ => ⟨S1048576, .i32⟩
  | .hbm, ⟨53, _⟩ => ⟨S1048576, .i32⟩
  | .hbm, ⟨54, _⟩ => ⟨S1048576, .i32⟩
  | .hbm, ⟨55, _⟩ => ⟨S1048576x1, .i32⟩
  | .hbm, ⟨56, _⟩ => ⟨S1048576x128, .f32⟩
  | .hbm, ⟨57, _⟩ => ⟨S_, .f32⟩
  | .hbm, ⟨58, _⟩ => ⟨S65536x128, .f32⟩
  | .hbm, ⟨59, _⟩ => ⟨S1048576x1, .i32⟩
  | .hbm, ⟨60, _⟩ => ⟨S65536x128, .f32⟩
  | .hbm, ⟨61, _⟩ => ⟨S65536x1, .f32⟩
  | .hbm, ⟨62, _⟩ => ⟨S1x128, .f32⟩
  | .hbm, ⟨63, _⟩ => ⟨S65536x128, .f32⟩
  | .hbm, ⟨64, _⟩ => ⟨S_, .i32⟩
  | .hbm, ⟨65, _⟩ => ⟨S1048576, .i32⟩
  | .hbm, ⟨66, _⟩ => ⟨S1048576, .i1⟩
  | .hbm, ⟨67, _⟩ => ⟨S_, .i32⟩
  | .hbm, ⟨68, _⟩ => ⟨S1048576, .i32⟩
  | .hbm, ⟨69, _⟩ => ⟨S1048576, .i32⟩
  | .hbm, ⟨70, _⟩ => ⟨S1048576, .i32⟩
  | .hbm, ⟨71, _⟩ => ⟨S1048576x1, .i32⟩
  | .hbm, ⟨72, _⟩ => ⟨S1048576x128, .f32⟩
  | .hbm, ⟨73, _⟩ => ⟨S1048576x128, .f32⟩
  | .hbm, ⟨74, _⟩ => ⟨S_, .f32⟩
  | .hbm, ⟨75, _⟩ => ⟨S65536x128, .f32⟩
  | .hbm, ⟨76, _⟩ => ⟨S1048576x1, .i32⟩
  | .hbm, ⟨77, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x1, .f32⟩
  | .local _ .vmem, ⟨10, _⟩ => ⟨S4096x1, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x1, .f32⟩
  | .local _ .vmem, ⟨17, _⟩ => ⟨S4096x1, .f32⟩
  | .local _ .vmem, ⟨18, _⟩ => ⟨S128x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x1, .f32⟩
  | .local _ .vmem, ⟨24, _⟩ => ⟨S4096x1, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S8192x128, .f32⟩
  | .local _ .vmem, ⟨29, _⟩ => ⟨S8192x128, .f32⟩
  | .local _ .vmem, ⟨30, _⟩ => ⟨S8192x1, .f32⟩
  | .local _ .vmem, ⟨31, _⟩ => ⟨S8192x1, .f32⟩
  | .local _ .vmem, ⟨32, _⟩ => ⟨S8192x128, .f32⟩
  | .local _ .vmem, ⟨33, _⟩ => ⟨S8192x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S65536_S65536x1_0 : S65536.BroadcastsInDim S65536x1 (![0] : Fin 1 → Fin S65536x1.rank)
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S65536x128 : S_.BroadcastsInDim S65536x128 (![] : Fin 0 → Fin S65536x128.rank)
  shapeCasts_S128_S1x128 : S128.ShapeCasts S1x128
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  broadcasts_S8192x1_S8192x128 : S8192x1.Broadcasts S8192x128
  scatter_S65536_S1048576x1_S1048576_n_0_0_1_wf : ScatterDims.WF S65536 S1048576x1 S1048576 [] [0] [0] 1
  dot_S4096x128_S128x128_S4096x128_1_0_0_1_n_n_wf : DotDims.WF S4096x128 S128x128 S4096x128 [1] [0] [0] [1] [] []
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .f32 = 32 ∨ (Rect.block (s := S65536x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S65536x1.size a
  hwx1_1 : ∀ i : grid1.Coords, EltTy.bits .f32 = 32 ∨ (Rect.block (s := S65536x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S65536x128.size a
  hwx1_3 : ∀ i : grid1.Coords, EltTy.bits .f32 = 32 ∨ (Rect.block (s := S65536x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .f32 = 32 ∨ (Rect.block (s := S65536x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S65536x1.size a
  hwx2_1 : ∀ i : grid2.Coords, EltTy.bits .f32 = 32 ∨ (Rect.block (s := S65536x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S65536x128.size a
  hwx2_3 : ∀ i : grid2.Coords, EltTy.bits .f32 = 32 ∨ (Rect.block (s := S65536x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .f32 = 32 ∨ (Rect.block (s := S65536x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S65536x1.size a
  hwx3_1 : ∀ i : grid3.Coords, EltTy.bits .f32 = 32 ∨ (Rect.block (s := S65536x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S65536x128.size a
  hwx3_3 : ∀ i : grid3.Coords, EltTy.bits .f32 = 32 ∨ (Rect.block (s := S65536x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S1048576x128.size a
  hwx4_0 : ∀ i : grid4.Coords, EltTy.bits .f32 = 32 ∨ (Rect.block (s := S1048576x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1048576x1.size a
  hwx4_1 : ∀ i : grid4.Coords, EltTy.bits .f32 = 32 ∨ (Rect.block (s := S1048576x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S1048576x128.size a
  hwx4_2 : ∀ i : grid4.Coords, EltTy.bits .f32 = 32 ∨ (Rect.block (s := S1048576x128) S8192x128.size (cc4_transform_2 i) (hinb4_2 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S8192x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S65536x128 : Shape := ⟨2, ![65536, 128]⟩
abbrev S1048576x1 : Shape := ⟨2, ![1048576, 1]⟩
abbrev S128x128 : Shape := ⟨2, ![128, 128]⟩
abbrev S128 : Shape := ⟨1, ![128]⟩
abbrev S1048576 : Shape := ⟨1, ![1048576]⟩
abbrev S_ : Shape := ⟨0, ![]⟩
abbrev S65536 : Shape := ⟨1, ![65536]⟩
abbrev S65536x1 : Shape := ⟨2, ![65536, 1]⟩
abbrev S1048576x128 : Shape := ⟨2, ![1048576, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1048576, .i32⟩
  | .hbm, ⟨7, _⟩ => ⟨S1048576, .i32⟩
  | .hbm, ⟨8, _⟩ => ⟨S_, .f32⟩
  | .hbm, ⟨9, _⟩ => ⟨S1048576, .f32⟩
  | .hbm, ⟨10, _⟩ => ⟨S_, .f32⟩
  | .hbm, ⟨11, _⟩ => ⟨S65536, .f32⟩
  | .hbm, ⟨12, _⟩ => ⟨S1048576x1, .i32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S1048576x1, .i32⟩
  | .hbm, ⟨17, _⟩ => ⟨S65536, .f32⟩
  | .hbm, ⟨18, _⟩ => ⟨S_, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S_, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536x1, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576x128, .f32⟩
  | .hbm, ⟨41, _⟩ => ⟨S_, .f32⟩
  | .hbm, ⟨42, _⟩ => ⟨S65536x128, .f32⟩
  | .hbm, ⟨43, _⟩ => ⟨S1048576x1, .i32⟩
  | .hbm, ⟨44, _⟩ => ⟨S65536x128, .f32⟩
  | .hbm, ⟨45, _⟩ => ⟨S65536x1, .f32⟩
  | .hbm, ⟨46, _⟩ => ⟨S65536x128, .f32⟩
  | .hbm, ⟨47, _⟩ => ⟨S65536x128, .f32⟩
  | .hbm, ⟨48, _⟩ => ⟨S1x128, .f32⟩
  | .hbm, ⟨49, _⟩ => ⟨S65536x128, .f32⟩
  | .hbm, ⟨50, _⟩ => ⟨S65536x128, .f32⟩
  | .hbm, ⟨51, _⟩ => ⟨S_, .f32⟩
  | .hbm, ⟨52, _⟩ => ⟨S65536x128, .f32⟩
  | .hbm, ⟨53, _⟩ => ⟨S65536x128, .f32⟩
  | .hbm, ⟨54, _⟩ => ⟨S65536x1, .f32⟩
  | .hbm, ⟨55, _⟩ => ⟨S65536x128, .f32⟩
  | .hbm, ⟨56, _⟩ => ⟨S65536x128, .f32⟩
  | .hbm, ⟨57, _⟩ => ⟨S65536x128, .f32⟩
  | .hbm, ⟨58, _⟩ => ⟨S_, .i32⟩
  | .hbm, ⟨59, _⟩ => ⟨S1048576, .i32⟩
  | .hbm, ⟨60, _⟩ => ⟨S1048576, .i1⟩
  | .hbm, ⟨61, _⟩ => ⟨S_, .i32⟩
  | .hbm, ⟨62, _⟩ => ⟨S1048576, .i32⟩
  | .hbm, ⟨63, _⟩ => ⟨S1048576, .i32⟩
  | .hbm, ⟨64, _⟩ => ⟨S1048576, .i32⟩
  | .hbm, ⟨65, _⟩ => ⟨S1048576x1, .i32⟩
  | .hbm, ⟨66, _⟩ => ⟨S1048576x128, .f32⟩
  | .hbm, ⟨67, _⟩ => ⟨S_, .f32⟩
  | .hbm, ⟨68, _⟩ => ⟨S65536x128, .f32⟩
  | .hbm, ⟨69, _⟩ => ⟨S1048576x1, .i32⟩
  | .hbm, ⟨70, _⟩ => ⟨S65536x128, .f32⟩
  | .hbm, ⟨71, _⟩ => ⟨S65536x1, .f32⟩
  | .hbm, ⟨72, _⟩ => ⟨S65536x128, .f32⟩
  | .hbm, ⟨73, _⟩ => ⟨S65536x128, .f32⟩
  | .hbm, ⟨74, _⟩ => ⟨S1x128, .f32⟩
  | .hbm, ⟨75, _⟩ => ⟨S65536x128, .f32⟩
  | .hbm, ⟨76, _⟩ => ⟨S65536x128, .f32⟩
  | .hbm, ⟨77, _⟩ => ⟨S_, .i32⟩
  | .hbm, ⟨78, _⟩ => ⟨S1048576, .i32⟩
  | .hbm, ⟨79, _⟩ => ⟨S1048576, .i1⟩
  | .hbm, ⟨80, _⟩ => ⟨S_, .i32⟩
  | .hbm, ⟨81, _⟩ => ⟨S1048576, .i32⟩
  | .hbm, ⟨82, _⟩ => ⟨S1048576, .i32⟩
  | .hbm, ⟨83, _⟩ => ⟨S1048576, .i32⟩
  | .hbm, ⟨84, _⟩ => ⟨S1048576x1, .i32⟩
  | .hbm, ⟨85, _⟩ => ⟨S1048576x128, .f32⟩
  | .hbm, ⟨86, _⟩ => ⟨S1048576x128, .f32⟩
  | .hbm, ⟨87, _⟩ => ⟨S1048576x128, .f32⟩
  | .hbm, ⟨88, _⟩ => ⟨S_, .f32⟩
  | .hbm, ⟨89, _⟩ => ⟨S65536x128, .f32⟩
  | .hbm, ⟨90, _⟩ => ⟨S1048576x1, .i32⟩
  | .hbm, ⟨91, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_cst : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S1048576x1_S1048576x128_0_1 : S1048576x1.BroadcastsInDim S1048576x128 (![0, 1] : Fin 2 → Fin S1048576x128.rank)
  scatter_S65536_S1048576x1_S1048576_n_0_0_1_wf : ScatterDims.WF S65536 S1048576x1 S1048576 [] [0] [0] 1
  dot_S65536x128_S128x128_S65536x128_1_0_0_1_n_n_wf : DotDims.WF S65536x128 S128x128 S65536x128 [1] [0] [0] [1] [] []
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf

class Facts : Prop extends Facts₀ where

variable [Facts]
-- ==== Proof.Spec.lean ====
/-
  The four whole-array functions the kernel's five launches compute, stated index by index on the extended reals,
  over literal shapes and with no reference to either program.

  A graph convolution layer is: scale each node's feature row by the node's out-degree factor and project it by a
  weight matrix (`scaledProject`); gather the projected rows along the edges and sum them at the destination nodes
  (host operations, shared by both programs and never opened here); scale each aggregated row by the node's
  in-degree factor and add the bias row (`normBias`; followed by a clamp at zero after the first layer,
  `normBiasRelu`). The final message pass weights each gathered row by its edge's weight (`edgeScale`).
-/
import Idealize.ShloMosaic.PureOps.Ideal
import Idealize.ShloMosaic.PureOps.Ideal.Laws
import Idealize.ShloMosaic.Lib.ValueIdx

noncomputable section

namespace Cert.Spec

open Idealize.ShloMosaic

/-- Node features: 65536 nodes, 128 features each. -/
abbrev Nodes : Shape := ⟨2, ![65536, 128]⟩
/-- One factor per node, as a column. -/
abbrev NodeCol : Shape := ⟨2, ![65536, 1]⟩
/-- A 128 × 128 weight matrix. -/
abbrev Weights : Shape := ⟨2, ![128, 128]⟩
/-- A bias, as a row. -/
abbrev BiasRow : Shape := ⟨2, ![1, 128]⟩
/-- A bias, as a vector of 128 entries. -/
abbrev BiasVec : Shape := ⟨1, ![128]⟩
/-- One 128-feature message per edge, 1048576 edges. -/
abbrev Edges : Shape := ⟨2, ![1048576, 128]⟩
/-- One weight per edge, as a column. -/
abbrev EdgeCol : Shape := ⟨2, ![1048576, 1]⟩

/-- The index (r, c) of a node-feature array. -/
abbrev nodeIx (r : Fin 65536) (c : Fin 128) : Nodes.Idx := ValueIdx.ix2 r c
/-- The index (r, 0) of a per-node column. -/
abbrev nodeColIx (r : Fin 65536) : NodeCol.Idx := ValueIdx.ix2 r (0 : Fin 1)
/-- The index (k, c) of a weight matrix. -/
abbrev weightIx (k : Fin 128) (c : Fin 128) : Weights.Idx := ValueIdx.ix2 k c
/-- The index (0, c) of a bias row. -/
abbrev biasIx (c : Fin 128) : BiasRow.Idx := ValueIdx.ix2 (0 : Fin 1) c
/-- The index (e, 0) of a per-edge column. -/
abbrev edgeColIx (e : Fin 1048576) : EdgeCol.Idx := ValueIdx.ix2 e (0 : Fin 1)

/-- The row of an index of a node-feature array, as a number below 65536. -/
abbrev nodeRow (i : Nodes.Idx) : Fin 65536 := ⟨(i 0).val, (i 0).isLt⟩
/-- Its column, as a number below 128. -/
abbrev nodeLane (i : Nodes.Idx) : Fin 128 := ⟨(i 1).val, (i 1).isLt⟩
/-- The row of an index of a per-edge message array. -/
abbrev edgeRow (i : Edges.Idx) : Fin 1048576 := ⟨(i 0).val, (i 0).isLt⟩

/-- A bias vector laid out as a row: entry (0, c) is b[c]. -/
def biasRow (b : FVec Ideal BiasVec .f32) : FVec Ideal BiasRow .f32 :=
  fun i => b (ValueIdx.ix1 (⟨(i 1).val, (i 1).isLt⟩ : Fin 128))

/-- Entry (r, c) is the sum over k of (x[r, k] · n[r]) · w[k, c]: each node's row scaled by its factor, then
    multiplied by the weight matrix. -/
def scaledProject (x : FVec Ideal Nodes .f32) (n : FVec Ideal NodeCol .f32) (w : FVec Ideal Weights .f32) :
    FVec Ideal Nodes .f32 :=
  fun i => ∑ k : Fin 128, (x (nodeIx (nodeRow i) k) * n (nodeColIx (nodeRow i))) * w (weightIx k (nodeLane i))

/-- Entry (r, c) is a[r, c] · n[r] + b[c]. -/
def normBias (a : FVec Ideal Nodes .f32) (n : FVec Ideal NodeCol .f32) (b : FVec Ideal BiasRow .f32) :
    FVec Ideal Nodes .f32 :=
  fun i => a i * n (nodeColIx (nodeRow i)) + b (biasIx (nodeLane i))

/-- Entry (r, c) is max (a[r, c] · n[r] + b[c]) 0, the zero being the float word 0x00000000. -/
def normBiasRelu (a : FVec Ideal Nodes .f32) (n : FVec Ideal NodeCol .f32) (b : FVec Ideal BiasRow .f32) :
    FVec Ideal Nodes .f32 :=
  fun i => max (a i * n (nodeColIx (nodeRow i)) + b (biasIx (nodeLane i))) (Ideal.ofBits .f32 0x00000000#32)

/-- Entry (e, c) is g[e, c] · w[e]: each edge's message weighted by the edge's weight. -/
def edgeScale (g : FVec Ideal Edges .f32) (w : FVec Ideal EdgeCol .f32) : FVec Ideal Edges .f32 :=
  fun i => g i * w (edgeColIx (edgeRow i))

end Cert.Spec

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.ScaledProject0.lean ====
/- The first launch: each node's feature row scaled by its out-degree factor and projected by the first weight matrix. -/
import proofs.«122795_j7765300871331_1_alg».proof.Proof.Gen.KernelIdeal.Frame
import proofs.«122795_j7765300871331_1_alg».proof.Proof.Spec
import proofs.«122795_j7765300871331_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaledProject0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block product at an index -/

/-- The left operand's index on its row axis is the output's row. -/
theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- The left operand's index on its column axis is the contracted index. -/
theorem lhs_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right operand's index on its row axis is the contracted index. -/
theorem rhs_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- The right operand's index on its column axis is the output's column. -/
theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- One block's payload at (p, q): the sum over k of (x0[p, k] · x1[p, 0]) · x2[k, q]. The rounding of the two
    factors to the narrower float type is the identity on the extended reals, the column of factors is spread over
    the 128 lanes, and the product into the zero accumulator is the bare sum over the contracted axis. -/
theorem payload_apply (x0 : Vec Ideal S4096x128 .f32) (x1 : Vec Ideal S4096x1 .f32) (x2 : Vec Ideal S128x128 .f32)
    (p : Fin 4096) (q : Fin 128) :
    k0_pay1 (F := Ideal) x0 x1 x2 (ix2 p q)
      = ∑ k : Fin 128, (x0 (ix2 p k) * x1 (ix2 p (0 : Fin 1))) * x2 (ix2 k q) := by
  unfold k0_pay1
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_row _ _
    | ⟨1, _⟩ => exact (lhs_col _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, mulf_apply, shapeCast_self,
    ValueLayout.broadcastTo_a1_ab_apply (by decide)]

/-- Block b of the result. If x0 is rows 4096·b … 4096·b + 4095 of the node features X, x1 the same rows of the
    column of factors N, and x2 the whole weight matrix W, then the payload at (p, q) is `scaledProject X N W` at
    (4096·b + p, q). -/
theorem payload_block (X : FVec Ideal Cert.Spec.Nodes .f32) (N : FVec Ideal Cert.Spec.NodeCol .f32)
    (W : FVec Ideal Cert.Spec.Weights .f32)
    (x0 : Vec Ideal S4096x128 .f32) (x1 : Vec Ideal S4096x1 .f32) (x2 : Vec Ideal S128x128 .f32)
    (b : ℕ) (hb : b < 16)
    (h0 : ∀ (p : Fin 4096) (k : Fin 128), x0 (ix2 p k) = X (ix2 (⟨b * 4096 + p.val, by omega⟩ : Fin 65536) k))
    (h1 : ∀ p : Fin 4096, x1 (ix2 p (0 : Fin 1)) = N (ix2 (⟨b * 4096 + p.val, by omega⟩ : Fin 65536) (0 : Fin 1)))
    (h2 : ∀ (k : Fin 128) (q : Fin 128), x2 (ix2 k q) = W (ix2 k q))
    (p : Fin 4096) (q : Fin 128) :
    k0_pay1 (F := Ideal) x0 x1 x2 (ix2 p q)
      = Cert.Spec.scaledProject X N W (ix2 (⟨b * 4096 + p.val, by omega⟩ : Fin 65536) q) := by
  rw [payload_apply]
  show _ = ∑ k : Fin 128, (X (ix2 (⟨b * 4096 + p.val, _⟩ : Fin 65536) k) * N (ix2 (⟨b * 4096 + p.val, _⟩ : Fin 65536) (0 : Fin 1))) * W (ix2 k q)
  exact Finset.sum_congr rfl fun k _ => by rw [h0, h1, h2]

/-! ## From the blocks to the array -/

theorem zero_offsets : (![0, 0] : Fin 2 → Nat) = fun _ => 0 := funext fun a => by fin_cases a <;> rfl

/-- The printed index maps, decided over the grid: at point t the two row-blocked inputs and the output are at block
    (t, 0), the weight matrix at block (0, 0). -/
theorem block_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `scaledProject` of the three arrays as the launch finds them. -/
theorem flushed_eq (c : Dev nD) (t : Fin cfg0.N) :
    (dat0 (F := Ideal) V c).flushed 3 t
      = ((cfg0.win 3).blk t).view.read (Elt Ideal)
          (Cert.Spec.scaledProject (V c main_arg0) (V c main_v11) (V c main_arg2)) := by
  show (cfg0.win 3).cut (grid0.coords t) ((dat0 (F := Ideal) V c).after 3 t) = _
  rw [after0_3]
  unfold out0_3
  rw [View.canon_unit_zero zero_offsets]
  simp only [View.ld_unit_zero (S := S4096x128) zero_offsets, View.ld_unit_zero (S := S4096x1) zero_offsets,
    View.ld_unit_zero (S := S128x128) zero_offsets]
  obtain ⟨e00, e01, e10, e11, e20, e21, e30, e31⟩ := block_index t
  have ht : t.val < 16 := t.isLt
  funext j
  have hj0 : (j 0).val < 4096 := (j 0).isLt
  have hj1 : (j 1).val < 128 := (j 1).isLt
  have hj : j = ix2 (⟨(j 0).val, hj0⟩ : Fin 4096) (⟨(j 1).val, hj1⟩ : Fin 128) :=
    funext fun a => by match a with | ⟨0, _⟩ => rfl | ⟨1, _⟩ => rfl
  show k0_pay1 (F := Ideal) (iblk0 V c 0 t) (iblk0 V c 1 t) (iblk0 V c 2 t) j
    = Cert.Spec.scaledProject (V c main_arg0) (V c main_v11) (V c main_arg2) (((cfg0.win 3).blk t).view.emb j)
  refine (congrArg (k0_pay1 (F := Ideal) (iblk0 V c 0 t) (iblk0 V c 1 t) (iblk0 V c 2 t)) hj).trans ?_
  refine (payload_block (V c main_arg0) (V c main_v11) (V c main_arg2) _ _ _ t.val ht ?_ ?_ ?_ _ _).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 4096 + 1 * p.val = t.val * 4096 + p.val; omega
    | ⟨1, _⟩ => show win0_0.index t (1 : Fin 2) * 128 + 1 * k.val = k.val; omega
  · intro p
    show V c main_v11 (((cfg0.win 1).blk t).view.emb (ix2 p (0 : Fin 1))) = V c main_v11 _
    refine congrArg (V c main_v11) (funext fun a => Fin.ext ?_)
    match a with
    | ⟨0, _⟩ => show win0_1.index t (0 : Fin 2) * 4096 + 1 * p.val = t.val * 4096 + p.val; omega
    | ⟨1, _⟩ => show win0_1.index t (1 : Fin 2) * 1 + 1 * 0 = 0; omega
  · intro k q
    show V c main_arg2 (((cfg0.win 2).blk t).view.emb (ix2 k q)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · refine congrArg (Cert.Spec.scaledProject (V c main_arg0) (V c main_v11) (V c main_arg2)) (funext fun a => Fin.ext ?_)
    match a with
    | ⟨0, _⟩ => show t.val * 4096 + (j 0).val = win0_3.index t (0 : Fin 2) * 4096 + 1 * (j 0).val; omega
    | ⟨1, _⟩ => show (j 1).val = win0_3.index t (1 : Fin 2) * 128 + 1 * (j 1).val; omega

/-- An index of the output array is in point t's block iff each coordinate is in the block's range on its axis. -/
theorem mem_block (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v12).slice (win0_3.rect t)).set ↔ _
  rw [View.set_slice_whole, Rect.mem_set_unit]
  exact Iff.rfl

/-- The sixteen blocks of 4096 rows fill the array: row r is in the block of point r / 4096. -/
theorem cover (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  have hN : grid0.N = 16 := N_0
  let t : Fin cfg0.N := ⟨(i 0).val / 4096, by show (i 0).val / 4096 < grid0.N; rw [hN]; omega⟩
  obtain ⟨e00, e01, e10, e11, e20, e21, e30, e31⟩ := block_index t
  have ht : t.val = (i 0).val / 4096 := rfl
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- After the first launch its output array holds `scaledProject` of the three arrays it read, whatever the buffers
    held when it was entered. -/
theorem value (c : Dev nD) :
    (dat0 (F := Ideal) V c).arrAt 3 cfg0.N = Cert.Spec.scaledProject (V c main_arg0) (V c main_v11) (V c main_arg2) :=
  (dat0 (F := Ideal) V c).arrAt_eq_of_cover 3 _ (fun t _ => flushed_eq V c t) cover

end Cert.KernelIdeal.ScaledProject0

end
-- ==== Proof.NormBiasRelu1.lean ====
/- The second launch: the aggregated rows scaled by the in-degree factor, plus the first bias, clamped at zero. -/
import proofs.«122795_j7765300871331_1_alg».proof.Proof.Gen.KernelIdeal.Frame
import proofs.«122795_j7765300871331_1_alg».proof.Proof.Spec
import proofs.«122795_j7765300871331_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormBiasRelu1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-- The body's arithmetic at row p, lane q of a block: the row's entry times the row's factor, plus the lane's
    bias, clamped below at zero. -/
theorem payload_at (x0 : Vec Ideal S4096x128 .f32) (x1 : Vec Ideal S4096x1 .f32) (x2 : Vec Ideal S1x128 .f32)
    (p : Fin 4096) (q : Fin 128) :
    k1_pay1 (F := Ideal) x0 x1 x2 (ValueIdx.ix2 p q)
      = max (x0 (ValueIdx.ix2 p q) * x1 (ValueIdx.ix2 p (0 : Fin 1)) + x2 (ValueIdx.ix2 (0 : Fin 1) q))
          (Ideal.ofBits .f32 0x00000000#32) := by
  unfold k1_pay1
  rw [ValueIdx.maximumf_apply, ValueIdx.addf_apply, ValueIdx.mulf_apply, ValueIdx.broadcast_apply,
    shapeCast_self, shapeCast_self, shapeCast_self,
    ValueLayout.broadcastTo_a1_ab_apply (by decide), ValueIdx.broadcastTo_1b_ab_apply]
  rfl

/-- An entry of the whole-array function from three reads: the aggregated entry at the index itself, the factor at
    the index's row, the bias at the index's lane. -/
theorem entry_of_reads (a : FVec Ideal Cert.Spec.Nodes .f32) (n : FVec Ideal Cert.Spec.NodeCol .f32)
    (b : FVec Ideal Cert.Spec.BiasRow .f32) (i0 i : Cert.Spec.Nodes.Idx) (i1 : Cert.Spec.NodeCol.Idx) (i2 : Cert.Spec.BiasRow.Idx)
    (h0 : i0 = i) (h1 : i1 = Cert.Spec.nodeColIx (Cert.Spec.nodeRow i)) (h2 : i2 = Cert.Spec.biasIx (Cert.Spec.nodeLane i)) :
    max (a i0 * n i1 + b i2) (Ideal.ofBits .f32 0x00000000#32) = Cert.Spec.normBiasRelu a n b i := by
  subst h0 h1 h2; rfl

/-- The printed index maps over the sixteen grid points: the three row-blocked windows sit at block (t, 0), the
    bias row at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function of the arrays the launch read. -/
theorem flushed_eq (c : Dev nD) (t : Fin cfg1.N) :
    (dat1 (F := Ideal) V c).flushed 3 t
      = ((cfg1.win 3).blk t).view.read (Elt Ideal)
          (Cert.Spec.normBiasRelu (V c main_v22) (V c main_v23) (V c main_v24)) := by
  show (cfg1.win 3).cut (grid1.coords t) ((dat1 V c).after 3 t) = _
  rw [after1_3]
  unfold out1_3
  rw [View.canon_unit_zero zero_offsets]
  simp only [View.ld_unit_zero (S := S4096x128) zero_offsets, View.ld_unit_zero (S := S4096x1) zero_offsets,
    View.ld_unit_zero (S := S1x128) zero_offsets]
  obtain ⟨e00, e01, e10, e11, e20, e21, e30, e31⟩ := block_indices t
  funext j
  obtain ⟨p, q, rfl⟩ : ∃ (p : Fin 4096) (q : Fin 128), j = ValueIdx.ix2 p q := ⟨j 0, j 1, ValueIdx.eq_ix2 j⟩
  refine (payload_at _ _ _ p q).trans ?_
  have hp : p.val < 4096 := p.isLt
  have hq : q.val < 128 := q.isLt
  have h0 : ((cfg1.win 0).blk t).view.emb (ValueIdx.ix2 p q) = ((cfg1.win 3).blk t).view.emb (ValueIdx.ix2 p q) := by
    funext a; apply Fin.ext
    match a with
    | ⟨0, _⟩ => show win1_0.index t (0 : Fin 2) * 4096 + 1 * p.val = win1_3.index t (0 : Fin 2) * 4096 + 1 * p.val; omega
    | ⟨1, _⟩ => show win1_0.index t (1 : Fin 2) * 128 + 1 * q.val = win1_3.index t (1 : Fin 2) * 128 + 1 * q.val; omega
  have h1 : ((cfg1.win 1).blk t).view.emb (ValueIdx.ix2 p (0 : Fin 1))
      = Cert.Spec.nodeColIx (Cert.Spec.nodeRow (((cfg1.win 3).blk t).view.emb (ValueIdx.ix2 p q))) := by
    funext a; apply Fin.ext
    match a with
    | ⟨0, _⟩ => show win1_1.index t (0 : Fin 2) * 4096 + 1 * p.val = win1_3.index t (0 : Fin 2) * 4096 + 1 * p.val; omega
    | ⟨1, _⟩ => show win1_1.index t (1 : Fin 2) * 1 + 1 * 0 = 0; omega
  have h2 : ((cfg1.win 2).blk t).view.emb (ValueIdx.ix2 (0 : Fin 1) q)
      = Cert.Spec.biasIx (Cert.Spec.nodeLane (((cfg1.win 3).blk t).view.emb (ValueIdx.ix2 p q))) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact entry_of_reads (V c main_v22) (V c main_v23) (V c main_v24)
    (((cfg1.win 0).blk t).view.emb (ValueIdx.ix2 p q)) (((cfg1.win 3).blk t).view.emb (ValueIdx.ix2 p q))
    (((cfg1.win 1).blk t).view.emb (ValueIdx.ix2 p (0 : Fin 1))) (((cfg1.win 2).blk t).view.emb (ValueIdx.ix2 (0 : Fin 1) q))
    h0 h1 h2

/-- An index of the array is in point t's block iff each coordinate is in the block's range on its axis. -/
theorem mem_blk (t : Fin cfg1.N) (i : S65536x128.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v25).slice (win1_3.rect t)).set ↔ _
  rw [View.set_slice_whole, Rect.mem_set_unit]
  exact Iff.rfl

/-- Row r of the array lies in the block of point r / 4096: the sixteen blocks tile the array. -/
theorem cover (i : S65536x128.Idx) :
    ∃ t : Fin cfg1.N, (cfg1.win 3).flush t = true ∧ i ∈ ((cfg1.win 3).blk t).view.set := by
  have hi0 : (i 0).val < 65536 := (i 0).isLt
  have hi1 : (i 1).val < 128 := (i 1).isLt
  have ht : (i 0).val / 4096 < cfg1.N := by show (i 0).val / 4096 < 16; omega
  obtain ⟨-, -, -, -, -, -, e30, e31⟩ := block_indices ⟨(i 0).val / 4096, ht⟩
  refine ⟨⟨(i 0).val / 4096, ht⟩, flush1_3 _, ?_⟩
  rw [mem_blk]
  intro a
  match a with
  | ⟨0, _⟩ =>
    show win1_3.index ⟨(i 0).val / 4096, ht⟩ (0 : Fin 2) * 4096 ≤ (i 0).val
      ∧ (i 0).val < win1_3.index ⟨(i 0).val / 4096, ht⟩ (0 : Fin 2) * 4096 + 4096
    rw [e30]; show (i 0).val / 4096 * 4096 ≤ (i 0).val ∧ (i 0).val < (i 0).val / 4096 * 4096 + 4096; omega
  | ⟨1, _⟩ =>
    show win1_3.index ⟨(i 0).val / 4096, ht⟩ (1 : Fin 2) * 128 ≤ (i 1).val
      ∧ (i 1).val < win1_3.index ⟨(i 0).val / 4096, ht⟩ (1 : Fin 2) * 128 + 128
    rw [e31]; omega

/-- The output array after the launch is the whole-array function of the three arrays the launch read. -/
theorem value (c : Dev nD) :
    (dat1 (F := Ideal) V c).arrAt 3 cfg1.N = Cert.Spec.normBiasRelu (V c main_v22) (V c main_v23) (V c main_v24) := by
  exact (dat1 (F := Ideal) V c).arrAt_eq_of_cover 3 _ (fun t _ => flushed_eq V c t) cover

end Cert.KernelIdeal.NormBiasRelu1

end
-- ==== Proof.ScaledProject2.lean ====
/- The third launch: the hidden rows scaled by the out-degree factor and projected by the second weight matrix. -/
import proofs.«122795_j7765300871331_1_alg».proof.Proof.Gen.KernelIdeal.Frame
import proofs.«122795_j7765300871331_1_alg».proof.Proof.Spec
import proofs.«122795_j7765300871331_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaledProject2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block product at an index -/

/-- The left operand's index on its row axis is the output's row. -/
theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- The left operand's index on its column axis is the contracted index. -/
theorem lhs_col (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right operand's index on its row axis is the contracted index. -/
theorem rhs_row (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- The right operand's index on its column axis is the output's column. -/
theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- One block's payload at (p, q): the sum over k of (h[p, k] · n[p, 0]) · w[k, q], for a block h of hidden rows, the
    matching block n of the column of factors and the weight matrix w. Both same-shape casts and the rounding of the
    two factors to the narrower float type are the identity on the extended reals; the column of factors is spread
    over the 128 lanes; the product into the zero accumulator is the bare sum over the contracted axis. -/
theorem payload_apply (h : Vec Ideal S4096x128 .f32) (n : Vec Ideal S4096x1 .f32) (w : Vec Ideal S128x128 .f32)
    (p : Fin 4096) (q : Fin 128) :
    k2_pay1 (F := Ideal) h n w (ix2 p q)
      = ∑ k : Fin 128, (h (ix2 p k) * n (ix2 p (0 : Fin 1))) * w (ix2 k q) := by
  unfold k2_pay1
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs_row _ _
    | ⟨1, _⟩ => exact (lhs_col _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, mulf_apply, shapeCast_self, shapeCast_self,
    ValueLayout.broadcastTo_a1_ab_apply (by decide)]

/-- Block b of the result. If h is rows 4096·b … 4096·b + 4095 of the hidden array H, n the same rows of the column
    of factors N, and w the whole weight matrix W, then the payload at (p, q) is `scaledProject H N W` at
    (4096·b + p, q). -/
theorem payload_block (H : FVec Ideal Cert.Spec.Nodes .f32) (N : FVec Ideal Cert.Spec.NodeCol .f32)
    (W : FVec Ideal Cert.Spec.Weights .f32)
    (h : Vec Ideal S4096x128 .f32) (n : Vec Ideal S4096x1 .f32) (w : Vec Ideal S128x128 .f32)
    (b : ℕ) (hb : b < 16)
    (hh : ∀ (p : Fin 4096) (k : Fin 128), h (ix2 p k) = H (ix2 (⟨b * 4096 + p.val, by omega⟩ : Fin 65536) k))
    (hn : ∀ p : Fin 4096, n (ix2 p (0 : Fin 1)) = N (ix2 (⟨b * 4096 + p.val, by omega⟩ : Fin 65536) (0 : Fin 1)))
    (hw : ∀ (k : Fin 128) (q : Fin 128), w (ix2 k q) = W (ix2 k q))
    (p : Fin 4096) (q : Fin 128) :
    k2_pay1 (F := Ideal) h n w (ix2 p q)
      = Cert.Spec.scaledProject H N W (ix2 (⟨b * 4096 + p.val, by omega⟩ : Fin 65536) q) := by
  rw [payload_apply]
  show _ = ∑ k : Fin 128, (H (ix2 (⟨b * 4096 + p.val, _⟩ : Fin 65536) k) * N (ix2 (⟨b * 4096 + p.val, _⟩ : Fin 65536) (0 : Fin 1))) * W (ix2 k q)
  exact Finset.sum_congr rfl fun k _ => by rw [hh, hn, hw]

/-! ## From the blocks to the array -/

theorem zero_offsets : (![0, 0] : Fin 2 → Nat) = fun _ => 0 := funext fun a => by fin_cases a <;> rfl

/-- The printed index maps, decided over the grid: at point t the hidden rows, the column of factors and the output
    are at block (t, 0), the weight matrix at block (0, 0). -/
theorem block_index : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of `scaledProject` of the three arrays as the launch finds them. -/
theorem flushed_eq (c : Dev nD) (t : Fin cfg2.N) :
    (dat2 (F := Ideal) V c).flushed 3 t
      = ((cfg2.win 3).blk t).view.read (Elt Ideal)
          (Cert.Spec.scaledProject (V c main_v25) (V c main_v26) (V c main_arg4)) := by
  show (cfg2.win 3).cut (grid2.coords t) ((dat2 (F := Ideal) V c).after 3 t) = _
  rw [after2_3]
  unfold out2_3
  rw [View.canon_unit_zero zero_offsets]
  simp only [View.ld_unit_zero (S := S4096x128) zero_offsets, View.ld_unit_zero (S := S4096x1) zero_offsets,
    View.ld_unit_zero (S := S128x128) zero_offsets]
  obtain ⟨e00, e01, e10, e11, e20, e21, e30, e31⟩ := block_index t
  have ht : t.val < 16 := t.isLt
  funext j
  have hj0 : (j 0).val < 4096 := (j 0).isLt
  have hj1 : (j 1).val < 128 := (j 1).isLt
  have hj : j = ix2 (⟨(j 0).val, hj0⟩ : Fin 4096) (⟨(j 1).val, hj1⟩ : Fin 128) :=
    funext fun a => by match a with | ⟨0, _⟩ => rfl | ⟨1, _⟩ => rfl
  show k2_pay1 (F := Ideal) (iblk2 V c 0 t) (iblk2 V c 1 t) (iblk2 V c 2 t) j
    = Cert.Spec.scaledProject (V c main_v25) (V c main_v26) (V c main_arg4) (((cfg2.win 3).blk t).view.emb j)
  refine (congrArg (k2_pay1 (F := Ideal) (iblk2 V c 0 t) (iblk2 V c 1 t) (iblk2 V c 2 t)) hj).trans ?_
  refine (payload_block (V c main_v25) (V c main_v26) (V c main_arg4) _ _ _ t.val ht ?_ ?_ ?_ _ _).trans ?_
  · intro p k
    show V c main_v25 (((cfg2.win 0).blk t).view.emb (ix2 p k)) = V c main_v25 _
    refine congrArg (V c main_v25) (funext fun a => Fin.ext ?_)
    match a with
    | ⟨0, _⟩ => show win2_0.index t (0 : Fin 2) * 4096 + 1 * p.val = t.val * 4096 + p.val; omega
    | ⟨1, _⟩ => show win2_0.index t (1 : Fin 2) * 128 + 1 * k.val = k.val; omega
  · intro p
    show V c main_v26 (((cfg2.win 1).blk t).view.emb (ix2 p (0 : Fin 1))) = V c main_v26 _
    refine congrArg (V c main_v26) (funext fun a => Fin.ext ?_)
    match a with
    | ⟨0, _⟩ => show win2_1.index t (0 : Fin 2) * 4096 + 1 * p.val = t.val * 4096 + p.val; omega
    | ⟨1, _⟩ => show win2_1.index t (1 : Fin 2) * 1 + 1 * 0 = 0; omega
  · intro k q
    show V c main_arg4 (((cfg2.win 2).blk t).view.emb (ix2 k q)) = V c main_arg4 _
    refine congrArg (V c main_arg4) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · refine congrArg (Cert.Spec.scaledProject (V c main_v25) (V c main_v26) (V c main_arg4)) (funext fun a => Fin.ext ?_)
    match a with
    | ⟨0, _⟩ => show t.val * 4096 + (j 0).val = win2_3.index t (0 : Fin 2) * 4096 + 1 * (j 0).val; omega
    | ⟨1, _⟩ => show (j 1).val = win2_3.index t (1 : Fin 2) * 128 + 1 * (j 1).val; omega

/-- An index of the output array is in point t's block iff each coordinate is in the block's range on its axis. -/
theorem mem_block (t : Fin cfg2.N) (i : S65536x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v27).slice (win2_3.rect t)).set ↔ _
  rw [View.set_slice_whole, Rect.mem_set_unit]
  exact Iff.rfl

/-- The sixteen blocks of 4096 rows fill the array: row r is in the block of point r / 4096. -/
theorem cover (i : S65536x128.Idx) :
    ∃ t : Fin cfg2.N, (cfg2.win 3).flush t = true ∧ i ∈ ((cfg2.win 3).blk t).view.set := by
  have hi0 : (i 0).val < 65536 := (i 0).isLt
  have hi1 : (i 1).val < 128 := (i 1).isLt
  have hN : grid2.N = 16 := N_2
  let t : Fin cfg2.N := ⟨(i 0).val / 4096, by show (i 0).val / 4096 < grid2.N; rw [hN]; omega⟩
  obtain ⟨e00, e01, e10, e11, e20, e21, e30, e31⟩ := block_index t
  have ht : t.val = (i 0).val / 4096 := rfl
  refine ⟨t, flush2_3 t, ?_⟩
  rw [mem_block]
  intro a
  match a with
  | ⟨0, _⟩ => show win2_3.index t (0 : Fin 2) * 4096 ≤ (i 0).val ∧ (i 0).val < win2_3.index t (0 : Fin 2) * 4096 + 4096; omega
  | ⟨1, _⟩ => show win2_3.index t (1 : Fin 2) * 128 ≤ (i 1).val ∧ (i 1).val < win2_3.index t (1 : Fin 2) * 128 + 128; omega

/-- After the third launch its output array holds `scaledProject` of the three arrays it read, whatever the buffers
    held when it was entered. -/
theorem value (c : Dev nD) :
    (dat2 (F := Ideal) V c).arrAt 3 cfg2.N = Cert.Spec.scaledProject (V c main_v25) (V c main_v26) (V c main_arg4) :=
  (dat2 (F := Ideal) V c).arrAt_eq_of_cover 3 _ (fun t _ => flushed_eq V c t) cover

end Cert.KernelIdeal.ScaledProject2

end
-- ==== Proof.NormBias3.lean ====
/- The fourth launch: the aggregated rows scaled by the in-degree factor, plus the second bias. -/
import proofs.«122795_j7765300871331_1_alg».proof.Proof.Gen.KernelIdeal.Frame
import proofs.«122795_j7765300871331_1_alg».proof.Proof.Spec
import proofs.«122795_j7765300871331_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormBias3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-- The body's arithmetic at row p, lane q of a block: the row's entry times the row's factor, plus the lane's
    bias. -/
theorem payload_at (x0 : Vec Ideal S4096x128 .f32) (x1 : Vec Ideal S4096x1 .f32) (x2 : Vec Ideal S1x128 .f32)
    (p : Fin 4096) (q : Fin 128) :
    k3_pay1 (F := Ideal) x0 x1 x2 (ValueIdx.ix2 p q)
      = x0 (ValueIdx.ix2 p q) * x1 (ValueIdx.ix2 p (0 : Fin 1)) + x2 (ValueIdx.ix2 (0 : Fin 1) q) := by
  unfold k3_pay1
  rw [ValueIdx.addf_apply, ValueIdx.mulf_apply,
    shapeCast_self, shapeCast_self, shapeCast_self,
    ValueLayout.broadcastTo_a1_ab_apply (by decide), ValueIdx.broadcastTo_1b_ab_apply]

/-- An entry of the whole-array function from three reads: the aggregated entry at the index itself, the factor at
    the index's row, the bias at the index's lane. -/
theorem entry_of_reads (a : FVec Ideal Cert.Spec.Nodes .f32) (n : FVec Ideal Cert.Spec.NodeCol .f32)
    (b : FVec Ideal Cert.Spec.BiasRow .f32) (i0 i : Cert.Spec.Nodes.Idx) (i1 : Cert.Spec.NodeCol.Idx) (i2 : Cert.Spec.BiasRow.Idx)
    (h0 : i0 = i) (h1 : i1 = Cert.Spec.nodeColIx (Cert.Spec.nodeRow i)) (h2 : i2 = Cert.Spec.biasIx (Cert.Spec.nodeLane i)) :
    a i0 * n i1 + b i2 = Cert.Spec.normBias a n b i := by
  subst h0 h1 h2; rfl

/-- The printed index maps over the sixteen grid points: the three row-blocked windows sit at block (t, 0), the
    bias row at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the whole-array function of the arrays the launch read. -/
theorem flushed_eq (c : Dev nD) (t : Fin cfg3.N) :
    (dat3 (F := Ideal) V c).flushed 3 t
      = ((cfg3.win 3).blk t).view.read (Elt Ideal)
          (Cert.Spec.normBias (V c main_v37) (V c main_v38) (V c main_v39)) := by
  show (cfg3.win 3).cut (grid3.coords t) ((dat3 V c).after 3 t) = _
  rw [after3_3]
  unfold out3_3
  rw [View.canon_unit_zero zero_offsets]
  simp only [View.ld_unit_zero (S := S4096x128) zero_offsets, View.ld_unit_zero (S := S4096x1) zero_offsets,
    View.ld_unit_zero (S := S1x128) zero_offsets]
  obtain ⟨e00, e01, e10, e11, e20, e21, e30, e31⟩ := block_indices t
  funext j
  obtain ⟨p, q, rfl⟩ : ∃ (p : Fin 4096) (q : Fin 128), j = ValueIdx.ix2 p q := ⟨j 0, j 1, ValueIdx.eq_ix2 j⟩
  refine (payload_at _ _ _ p q).trans ?_
  have hp : p.val < 4096 := p.isLt
  have hq : q.val < 128 := q.isLt
  have h0 : ((cfg3.win 0).blk t).view.emb (ValueIdx.ix2 p q) = ((cfg3.win 3).blk t).view.emb (ValueIdx.ix2 p q) := by
    funext a; apply Fin.ext
    match a with
    | ⟨0, _⟩ => show win3_0.index t (0 : Fin 2) * 4096 + 1 * p.val = win3_3.index t (0 : Fin 2) * 4096 + 1 * p.val; omega
    | ⟨1, _⟩ => show win3_0.index t (1 : Fin 2) * 128 + 1 * q.val = win3_3.index t (1 : Fin 2) * 128 + 1 * q.val; omega
  have h1 : ((cfg3.win 1).blk t).view.emb (ValueIdx.ix2 p (0 : Fin 1))
      = Cert.Spec.nodeColIx (Cert.Spec.nodeRow (((cfg3.win 3).blk t).view.emb (ValueIdx.ix2 p q))) := by
    funext a; apply Fin.ext
    match a with
    | ⟨0, _⟩ => show win3_1.index t (0 : Fin 2) * 4096 + 1 * p.val = win3_3.index t (0 : Fin 2) * 4096 + 1 * p.val; omega
    | ⟨1, _⟩ => show win3_1.index t (1 : Fin 2) * 1 + 1 * 0 = 0; omega
  have h2 : ((cfg3.win 2).blk t).view.emb (ValueIdx.ix2 (0 : Fin 1) q)
      = Cert.Spec.biasIx (Cert.Spec.nodeLane (((cfg3.win 3).blk t).view.emb (ValueIdx.ix2 p q))) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact entry_of_reads (V c main_v37) (V c main_v38) (V c main_v39)
    (((cfg3.win 0).blk t).view.emb (ValueIdx.ix2 p q)) (((cfg3.win 3).blk t).view.emb (ValueIdx.ix2 p q))
    (((cfg3.win 1).blk t).view.emb (ValueIdx.ix2 p (0 : Fin 1))) (((cfg3.win 2).blk t).view.emb (ValueIdx.ix2 (0 : Fin 1) q))
    h0 h1 h2

/-- An index of the array is in point t's block iff each coordinate is in the block's range on its axis. -/
theorem mem_blk (t : Fin cfg3.N) (i : S65536x128.Idx) :
    i ∈ ((cfg3.win 3).blk t).view.set ↔ ∀ a : Fin 2, win3_3.index t a * S4096x128.size a ≤ (i a).val
      ∧ (i a).val < win3_3.index t a * S4096x128.size a + S4096x128.size a := by
  show i ∈ ((View.whole main_v40).slice (win3_3.rect t)).set ↔ _
  rw [View.set_slice_whole, Rect.mem_set_unit]
  exact Iff.rfl

/-- Row r of the array lies in the block of point r / 4096: the sixteen blocks tile the array. -/
theorem cover (i : S65536x128.Idx) :
    ∃ t : Fin cfg3.N, (cfg3.win 3).flush t = true ∧ i ∈ ((cfg3.win 3).blk t).view.set := by
  have hi0 : (i 0).val < 65536 := (i 0).isLt
  have hi1 : (i 1).val < 128 := (i 1).isLt
  have ht : (i 0).val / 4096 < cfg3.N := by show (i 0).val / 4096 < 16; omega
  obtain ⟨-, -, -, -, -, -, e30, e31⟩ := block_indices ⟨(i 0).val / 4096, ht⟩
  refine ⟨⟨(i 0).val / 4096, ht⟩, flush3_3 _, ?_⟩
  rw [mem_blk]
  intro a
  match a with
  | ⟨0, _⟩ =>
    show win3_3.index ⟨(i 0).val / 4096, ht⟩ (0 : Fin 2) * 4096 ≤ (i 0).val
      ∧ (i 0).val < win3_3.index ⟨(i 0).val / 4096, ht⟩ (0 : Fin 2) * 4096 + 4096
    rw [e30]; show (i 0).val / 4096 * 4096 ≤ (i 0).val ∧ (i 0).val < (i 0).val / 4096 * 4096 + 4096; omega
  | ⟨1, _⟩ =>
    show win3_3.index ⟨(i 0).val / 4096, ht⟩ (1 : Fin 2) * 128 ≤ (i 1).val
      ∧ (i 1).val < win3_3.index ⟨(i 0).val / 4096, ht⟩ (1 : Fin 2) * 128 + 128
    rw [e31]; omega

/-- The output array after the launch is the whole-array function of the three arrays the launch read. -/
theorem value (c : Dev nD) :
    (dat3 (F := Ideal) V c).arrAt 3 cfg3.N = Cert.Spec.normBias (V c main_v37) (V c main_v38) (V c main_v39) := by
  exact (dat3 (F := Ideal) V c).arrAt_eq_of_cover 3 _ (fun t _ => flushed_eq V c t) cover

end Cert.KernelIdeal.NormBias3

end
-- ==== Proof.EdgeScale4.lean ====
/- The fifth launch: each edge's gathered row weighted by the edge's weight. -/
import proofs.«122795_j7765300871331_1_alg».proof.Proof.Gen.KernelIdeal.Frame
import proofs.«122795_j7765300871331_1_alg».proof.Proof.Gen.KernelIdeal.Points
import proofs.«122795_j7765300871331_1_alg».proof.Proof.Spec
import proofs.«122795_j7765300871331_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeScale4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A whole-block access starts at offset zero on both axes. -/
theorem zero_offsets : (![0, 0] : Fin 2 → Nat) = fun _ => 0 := funext fun a => by fin_cases a <;> rfl

/-- The printed index maps over the 128 grid points: point `t` takes block row `t` of the messages, of the weight
    column and of the result, and the only block column. -/
theorem block_index : ∀ t : Fin cfg4.N,
    win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- The body's arithmetic at row `p`, lane `q` of a block: the message entry times the row's weight. -/
theorem payload_apply (x0 : Vec Ideal S8192x128 .f32) (x1 : Vec Ideal S8192x1 .f32) (p : Fin 8192) (q : Fin 128) :
    k4_pay1 x0 x1 (ValueIdx.ix2 p q) = x0 (ValueIdx.ix2 p q) * x1 (ValueIdx.ix2 p (0 : Fin 1)) := by
  unfold k4_pay1
  rw [ValueIdx.mulf_apply, shapeCast_self, ValueLayout.broadcastTo_a1_ab_apply (by decide)]

/-- The gathered messages the launch finds, one row of 128 features per edge. -/
abbrev messages (c : Dev nD) : FVec Ideal Cert.Spec.Edges .f32 := V c main_v47
/-- The edge weights the launch finds, one per edge. -/
abbrev weights (c : Dev nD) : FVec Ideal Cert.Spec.EdgeCol .f32 := V c main_arg1

/-- What grid point `t` writes back is block `t` of the weighted messages. -/
theorem flushed_eq (c : Dev nD) (t : Fin cfg4.N) :
    (dat4 (F := Ideal) V c).flushed 2 t
      = ((cfg4.win 2).blk t).view.read (Elt Ideal) (Cert.Spec.edgeScale (messages V c) (weights V c)) := by
  show (cfg4.win 2).cut (grid4.coords t) ((dat4 V c).after 2 t) = _
  rw [after4_2]
  unfold out4_2
  rw [View.canon_unit_zero zero_offsets]
  simp only [View.ld_unit_zero (S := S8192x128) zero_offsets, View.ld_unit_zero (S := S8192x1) zero_offsets]
  obtain ⟨e0, e1, e2, e3, e4, e5⟩ := block_index t
  funext j
  obtain ⟨p, q, rfl⟩ : ∃ (p : Fin 8192) (q : Fin 128), j = ValueIdx.ix2 p q := ⟨j 0, j 1, ValueIdx.eq_ix2 j⟩
  refine (payload_apply (iblk4 V c 0 t) (iblk4 V c 1 t) p q).trans ?_
  show messages V c (((cfg4.win 0).blk t).view.emb (ValueIdx.ix2 p q))
        * weights V c (((cfg4.win 1).blk t).view.emb (ValueIdx.ix2 p (0 : Fin 1)))
      = messages V c (((cfg4.win 2).blk t).view.emb (ValueIdx.ix2 p q))
        * weights V c (Cert.Spec.edgeColIx (Cert.Spec.edgeRow (((cfg4.win 2).blk t).view.emb (ValueIdx.ix2 p q))))
  have hp : p.val < 8192 := p.isLt
  have hq : q.val < 128 := q.isLt
  have hmsg : ((cfg4.win 0).blk t).view.emb (ValueIdx.ix2 p q) = ((cfg4.win 2).blk t).view.emb (ValueIdx.ix2 p q) := by
    funext a; apply Fin.ext
    match a with
    | ⟨0, _⟩ => show win4_0.index t (0 : Fin 2) * 8192 + 1 * p.val = win4_2.index t (0 : Fin 2) * 8192 + 1 * p.val; omega
    | ⟨1, _⟩ => show win4_0.index t (1 : Fin 2) * 128 + 1 * q.val = win4_2.index t (1 : Fin 2) * 128 + 1 * q.val; omega
  have hwt : ((cfg4.win 1).blk t).view.emb (ValueIdx.ix2 p (0 : Fin 1))
      = Cert.Spec.edgeColIx (Cert.Spec.edgeRow (((cfg4.win 2).blk t).view.emb (ValueIdx.ix2 p q))) := by
    funext a; apply Fin.ext
    match a with
    | ⟨0, _⟩ => show win4_1.index t (0 : Fin 2) * 8192 + 1 * p.val = win4_2.index t (0 : Fin 2) * 8192 + 1 * p.val; omega
    | ⟨1, _⟩ => show win4_1.index t (1 : Fin 2) * 1 + 1 * 0 = 0; omega
  rw [hmsg, hwt]

/-- An index of the result is in point `t`'s block iff each coordinate is in the block's range on its axis. -/
theorem mem_block (t : Fin cfg4.N) (i : S1048576x128.Idx) :
    i ∈ ((cfg4.win 2).blk t).view.set ↔ ∀ a : Fin 2, win4_2.index t a * S8192x128.size a ≤ (i a).val
      ∧ (i a).val < win4_2.index t a * S8192x128.size a + S8192x128.size a := by
  show i ∈ ((View.whole main_v48).slice (win4_2.rect t)).set ↔ _
  rw [View.set_slice_whole, Rect.mem_set_unit]
  exact Iff.rfl

/-- The 128 blocks of 8192 rows tile the 1048576 rows: row `r` lies in the block of point `r / 8192`. -/
theorem cover (i : S1048576x128.Idx) :
    ∃ t : Fin cfg4.N, (cfg4.win 2).flush t = true ∧ i ∈ ((cfg4.win 2).blk t).view.set := by
  have hi0 : (i 0).val < 1048576 := (i 0).isLt
  have hi1 : (i 1).val < 128 := (i 1).isLt
  have hN : cfg4.N = 128 := N_4
  refine ⟨⟨(i 0).val / 8192, by rw [hN]; omega⟩, flush4_2 _, ?_⟩
  obtain ⟨-, -, -, -, e4, e5⟩ := block_index ⟨(i 0).val / 8192, by rw [hN]; omega⟩
  rw [mem_block]
  intro a
  match a with
  | ⟨0, _⟩ =>
    show win4_2.index _ (0 : Fin 2) * 8192 ≤ (i 0).val ∧ (i 0).val < win4_2.index _ (0 : Fin 2) * 8192 + 8192
    rw [e4]; show (i 0).val / 8192 * 8192 ≤ (i 0).val ∧ (i 0).val < (i 0).val / 8192 * 8192 + 8192; omega
  | ⟨1, _⟩ =>
    show win4_2.index _ (1 : Fin 2) * 128 ≤ (i 1).val ∧ (i 1).val < win4_2.index _ (1 : Fin 2) * 128 + 128
    rw [e5]; omega

/-- After the launch the result array holds every edge's message times the edge's weight. -/
theorem value (c : Dev nD) :
    (dat4 (F := Ideal) V c).arrAt 2 cfg4.N = Cert.Spec.edgeScale (V c main_v47) (V c main_arg1) :=
  (dat4 (F := Ideal) V c).arrAt_eq_of_cover 2 _ (fun t _ => flushed_eq V c t) cover

end Cert.KernelIdeal.EdgeScale4

end
-- ==== Proof.KernelChain.lean ====
/-
  What the kernel's program leaves in its result buffer, as one term of the argument arrays: the contents of the
  buffers at each boundary between a stretch of host operations and a launch, read forward from the launch memory.

  Both graph-convolution layers use the same two degree factors (the reciprocal square roots of the clamped out- and
  in-degrees, each degree a scatter-add of ones), the same source index column (the source node of every edge, a
  negative one wrapped by the node count) and the same destination index column. A layer is: the rows scaled by the
  out-degree factor and projected by the layer's weights; those rows gathered along the edges and summed at the
  destinations; the sums scaled by the in-degree factor plus the layer's bias (clamped at zero after the first layer).
  The last pass gathers the second layer's rows along the edges, weights each by its edge's weight and sums them at
  the destinations. The host operations are carried as they are printed and never opened; each launch's output is
  its stage's function of the arrays it read.
-/
import proofs.«122795_j7765300871331_1_alg».proof.Proof.Gen.KernelIdeal.Frame
import proofs.«122795_j7765300871331_1_alg».proof.Proof.Spec
import proofs.«122795_j7765300871331_1_alg».proof.Proof.ScaledProject0
import proofs.«122795_j7765300871331_1_alg».proof.Proof.NormBiasRelu1
import proofs.«122795_j7765300871331_1_alg».proof.Proof.ScaledProject2
import proofs.«122795_j7765300871331_1_alg».proof.Proof.NormBias3
import proofs.«122795_j7765300871331_1_alg».proof.Proof.EdgeScale4
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

section Shared

variable {F : FTy → Type} [FloatOps F]

/-! ## The shared pieces, as the host operations spell them -/

/-- A degree factor: the reciprocal square root of the count of edges at each node (a scatter-add of ones at the
    edges' end nodes `e`), clamped below at one. -/
abbrev degNorm (e : (⟨S1048576, .i32⟩ : BufTy).Contents (Elt F)) : (⟨S65536, .f32⟩ : BufTy).Contents (Elt F) :=
  Host.rsqrt (maximumf (broadcastInDim S65536 ![] bcast_S_S65536 (id (constant S_ .f32 0x3F800000#32))) (Host.scatterAdd scatter_S65536_S1048576x1_S1048576_n_0_0_1 (broadcastInDim S65536 ![] bcast_S_S65536 (constant S_ .f32 0x00000000#32)) (broadcastInDim S1048576x1 ![0] bcast_S1048576_S1048576x1_0 e) (broadcastInDim S1048576 ![] bcast_S_S1048576 (constant S_ .f32 0x3F800000#32))))

/-- The out-degree factor, from the edges' sources. -/
abbrev outNorm (src : (⟨S1048576, .i32⟩ : BufTy).Contents (Elt F)) : (⟨S65536, .f32⟩ : BufTy).Contents (Elt F) := degNorm src
/-- The in-degree factor, from the edges' destinations. -/
abbrev inNorm (dst : (⟨S1048576, .i32⟩ : BufTy).Contents (Elt F)) : (⟨S65536, .f32⟩ : BufTy).Contents (Elt F) := degNorm dst

/-- A per-node factor as a column. -/
abbrev col (v : (⟨S65536, .f32⟩ : BufTy).Contents (Elt F)) : (⟨S65536x1, .f32⟩ : BufTy).Contents (Elt F) :=
  broadcastInDim S65536x1 ![0] bcast_S65536_S65536x1_0 v

/-- The source node of every edge, a negative index wrapped by the node count, as an index column. -/
abbrev srcIdx (src : (⟨S1048576, .i32⟩ : BufTy).Contents (Elt F)) : (⟨S1048576x1, .i32⟩ : BufTy).Contents (Elt F) :=
  broadcastInDim S1048576x1 ![0] bcast_S1048576_S1048576x1_0 (select (cmpi .slt src (broadcastInDim S1048576 ![] bcast_S_S1048576 (constantI S_ 32 0#32))) (addi src (broadcastInDim S1048576 ![] bcast_S_S1048576 (constantI S_ 32 65536#32))) src)

/-- The rows of a node array gathered along the edges' sources. -/
abbrev gatherSrc (src : (⟨S1048576, .i32⟩ : BufTy).Contents (Elt F)) (h : (⟨S65536x128, .f32⟩ : BufTy).Contents (Elt F)) : (⟨S1048576x128, .f32⟩ : BufTy).Contents (Elt F) :=
  Host.gather gather_S65536x128_S1048576x1_S1048576x128_1_0_n_n_0_1_1128 h (srcIdx src)

/-- Per-edge rows summed at the edges' destinations, from zero. -/
abbrev scatterDst (dst : (⟨S1048576, .i32⟩ : BufTy).Contents (Elt F)) (u : (⟨S1048576x128, .f32⟩ : BufTy).Contents (Elt F)) : (⟨S65536x128, .f32⟩ : BufTy).Contents (Elt F) :=
  Host.scatterAdd scatter_S65536x128_S1048576x1_S1048576x128_1_0_0_1 (broadcastInDim S65536x128 ![] bcast_S_S65536x128 (constant S_ .f32 0x00000000#32)) (broadcastInDim S1048576x1 ![0] bcast_S1048576_S1048576x1_0 dst) u

/-- A bias vector reshaped to a one-row matrix. -/
abbrev rowOf (b : (⟨S128, .f32⟩ : BufTy).Contents (Elt F)) : (⟨S1x128, .f32⟩ : BufTy).Contents (Elt F) :=
  fun i => shapeCast S1x128 b shapeCasts_S128_S1x128 i

/-! ## The whole composition, over any stage functions

The program's result as a function of the eight argument arrays, with the four stages and the layout of a bias as
parameters: what the kernel's program and the reference's share, whatever the stages compute. -/

/-- Features, edge weights, the two layers' weights and biases, the edges' sources and destinations; then the
    stage functions. -/
abbrev resultWith (feat : (⟨S65536x128, .f32⟩ : BufTy).Contents (Elt F)) (ew : (⟨S1048576x1, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (src dst : (⟨S1048576, .i32⟩ : BufTy).Contents (Elt F))
    (project : FVec F S65536x128 .f32 → FVec F S65536x1 .f32 → FVec F S128x128 .f32 → FVec F S65536x128 .f32)
    (normClamp norm : FVec F S65536x128 .f32 → FVec F S65536x1 .f32 → FVec F S1x128 .f32 → FVec F S65536x128 .f32)
    (weigh : FVec F S1048576x128 .f32 → FVec F S1048576x1 .f32 → FVec F S1048576x128 .f32)
    (row : FVec F S128 .f32 → FVec F S1x128 .f32) : (⟨S65536x128, .f32⟩ : BufTy).Contents (Elt F) :=
  scatterDst dst (weigh (gatherSrc src (norm (scatterDst dst (gatherSrc src (project (normClamp (scatterDst dst (gatherSrc src (project feat (col (outNorm src)) w1))) (col (inNorm dst)) (row b1)) (col (outNorm src)) w2))) (col (inNorm dst)) (row b2))) ew)

variable (m : (ℓ : Loc nD τ sig) → Buf (Elt F) ℓ) (ρ : Dev nD → PrngReg) (c : Dev nD)

/-! ## Before the first launch (for any float instance: nothing here depends on what the operations compute) -/

theorem W5_arg0 : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) _ = _
  after_results_simp

theorem W5_arg1 : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) _ = _
  after_results_simp

theorem W5_arg2 : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) _ = _
  after_results_simp

theorem W5_arg3 : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) _ = _
  after_results_simp

theorem W5_arg4 : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) _ = _
  after_results_simp

theorem W5_arg5 : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) _ = _
  after_results_simp

theorem W5_arg6 : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) _ = _
  after_results_simp

theorem W5_arg7 : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) _ = _
  after_results_simp

theorem W5_v9 : W5 m ρ c (Proc.devRef .tc main_v9) = outNorm (m ((c : Thread nD τ).loc main_arg6)) := by
  show StableHlo.after hostOps0_4 (StableHlo.after hostOps0_3 (StableHlo.after hostOps0_2 (StableHlo.after hostOps0_1 (StableHlo.after hostOps0 (W0 m ρ c))))) _ = _
  after_results_simp
  rfl

theorem W5_v10 : W5 m ρ c (Proc.devRef .tc main_v10) = inNorm (m ((c : Thread nD τ).loc main_arg7)) := by
  show StableHlo.after hostOps0_4 (StableHlo.after hostOps0_3 (StableHlo.after hostOps0_2 (StableHlo.after hostOps0_1 (StableHlo.after hostOps0 (W0 m ρ c))))) _ = _
  after_results_simp
  rfl

theorem W5_v11 : W5 m ρ c (Proc.devRef .tc main_v11) = col (outNorm (m ((c : Thread nD τ).loc main_arg6))) := by
  show StableHlo.after hostOps0_4 (StableHlo.after hostOps0_3 (StableHlo.after hostOps0_2 (StableHlo.after hostOps0_1 (StableHlo.after hostOps0 (W0 m ρ c))))) _ = _
  after_results_simp
  rfl

end Shared

variable (m : (ℓ : Loc nD τ sig) → Buf (Elt Ideal) ℓ) (ρ : Dev nD → PrngReg) (c : Dev nD)

/-! ## The stages' values -/

/-- The first layer's projected rows. -/
abbrev proj1 : (⟨S65536x128, .f32⟩ : BufTy).Contents (Elt Ideal) :=
  Cert.Spec.scaledProject (m ((c : Thread nD τ).loc main_arg0)) (col (outNorm (m ((c : Thread nD τ).loc main_arg6)))) (m ((c : Thread nD τ).loc main_arg2))
/-- The first layer's output: aggregated, normalized, biased, clamped at zero. -/
abbrev hidden : (⟨S65536x128, .f32⟩ : BufTy).Contents (Elt Ideal) :=
  Cert.Spec.normBiasRelu (scatterDst (m ((c : Thread nD τ).loc main_arg7)) (gatherSrc (m ((c : Thread nD τ).loc main_arg6)) (proj1 m c))) (col (inNorm (m ((c : Thread nD τ).loc main_arg7)))) (rowOf (m ((c : Thread nD τ).loc main_arg3)))
/-- The second layer's projected rows. -/
abbrev proj2 : (⟨S65536x128, .f32⟩ : BufTy).Contents (Elt Ideal) :=
  Cert.Spec.scaledProject (hidden m c) (col (outNorm (m ((c : Thread nD τ).loc main_arg6)))) (m ((c : Thread nD τ).loc main_arg4))
/-- The second layer's output. -/
abbrev out2 : (⟨S65536x128, .f32⟩ : BufTy).Contents (Elt Ideal) :=
  Cert.Spec.normBias (scatterDst (m ((c : Thread nD τ).loc main_arg7)) (gatherSrc (m ((c : Thread nD τ).loc main_arg6)) (proj2 m c))) (col (inNorm (m ((c : Thread nD τ).loc main_arg7)))) (rowOf (m ((c : Thread nD τ).loc main_arg5)))
/-- The weighted messages of the last pass. -/
abbrev messages : (⟨S1048576x128, .f32⟩ : BufTy).Contents (Elt Ideal) :=
  Cert.Spec.edgeScale (gatherSrc (m ((c : Thread nD τ).loc main_arg6)) (out2 m c)) (m ((c : Thread nD τ).loc main_arg1))
/-- The result: the weighted messages summed at the destinations. -/
abbrev result : (⟨S65536x128, .f32⟩ : BufTy).Contents (Elt Ideal) :=
  scatterDst (m ((c : Thread nD τ).loc main_arg7)) (messages m c)

/-- The result is the shared composition at the four stage functions and the reshaped bias. -/
theorem result_eq_resultWith : result m c = resultWith (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    Cert.Spec.scaledProject Cert.Spec.normBiasRelu Cert.Spec.normBias Cert.Spec.edgeScale (rowOf (F := Ideal)) := rfl

/-! ## The first launch and the stretch after it -/

theorem W6_v12 : W6 m ρ c (Proc.devRef .tc main_v12) = proj1 m c := by
  refine (W6_arr m ρ c 3).trans ?_
  refine (Cert.KernelIdeal.ScaledProject0.value (V5 m ρ) c).trans ?_
  show Cert.Spec.scaledProject (W5 m ρ c (Proc.devRef .tc main_arg0)) (W5 m ρ c (Proc.devRef .tc main_v11)) (W5 m ρ c (Proc.devRef .tc main_arg2)) = _
  rw [W5_arg0, W5_v11, W5_arg2]

theorem W6_arg1 : W6 m ρ c (Proc.devRef .tc main_arg1) = m ((c : Thread nD τ).loc main_arg1) :=
  (W6_of_ne m ρ c main_arg1 (by decide)).trans (W5_arg1 m ρ c)

theorem W6_arg3 : W6 m ρ c (Proc.devRef .tc main_arg3) = m ((c : Thread nD τ).loc main_arg3) :=
  (W6_of_ne m ρ c main_arg3 (by decide)).trans (W5_arg3 m ρ c)

theorem W6_arg4 : W6 m ρ c (Proc.devRef .tc main_arg4) = m ((c : Thread nD τ).loc main_arg4) :=
  (W6_of_ne m ρ c main_arg4 (by decide)).trans (W5_arg4 m ρ c)

theorem W6_arg5 : W6 m ρ c (Proc.devRef .tc main_arg5) = m ((c : Thread nD τ).loc main_arg5) :=
  (W6_of_ne m ρ c main_arg5 (by decide)).trans (W5_arg5 m ρ c)

theorem W6_arg6 : W6 m ρ c (Proc.devRef .tc main_arg6) = m ((c : Thread nD τ).loc main_arg6) :=
  (W6_of_ne m ρ c main_arg6 (by decide)).trans (W5_arg6 m ρ c)

theorem W6_arg7 : W6 m ρ c (Proc.devRef .tc main_arg7) = m ((c : Thread nD τ).loc main_arg7) :=
  (W6_of_ne m ρ c main_arg7 (by decide)).trans (W5_arg7 m ρ c)

theorem W6_v9 : W6 m ρ c (Proc.devRef .tc main_v9) = outNorm (m ((c : Thread nD τ).loc main_arg6)) :=
  (W6_of_ne m ρ c main_v9 (by decide)).trans (W5_v9 m ρ c)

theorem W6_v10 : W6 m ρ c (Proc.devRef .tc main_v10) = inNorm (m ((c : Thread nD τ).loc main_arg7)) :=
  (W6_of_ne m ρ c main_v10 (by decide)).trans (W5_v10 m ρ c)

theorem W7_arg1 : W7 m ρ c (Proc.devRef .tc main_arg1) = m ((c : Thread nD τ).loc main_arg1) := by
  show StableHlo.after hostOps1 (W6 m ρ c) _ = _
  after_results_simp
  exact W6_arg1 m ρ c

theorem W7_arg4 : W7 m ρ c (Proc.devRef .tc main_arg4) = m ((c : Thread nD τ).loc main_arg4) := by
  show StableHlo.after hostOps1 (W6 m ρ c) _ = _
  after_results_simp
  exact W6_arg4 m ρ c

theorem W7_arg5 : W7 m ρ c (Proc.devRef .tc main_arg5) = m ((c : Thread nD τ).loc main_arg5) := by
  show StableHlo.after hostOps1 (W6 m ρ c) _ = _
  after_results_simp
  exact W6_arg5 m ρ c

theorem W7_arg6 : W7 m ρ c (Proc.devRef .tc main_arg6) = m ((c : Thread nD τ).loc main_arg6) := by
  show StableHlo.after hostOps1 (W6 m ρ c) _ = _
  after_results_simp
  exact W6_arg6 m ρ c

theorem W7_arg7 : W7 m ρ c (Proc.devRef .tc main_arg7) = m ((c : Thread nD τ).loc main_arg7) := by
  show StableHlo.after hostOps1 (W6 m ρ c) _ = _
  after_results_simp
  exact W6_arg7 m ρ c

theorem W7_v9 : W7 m ρ c (Proc.devRef .tc main_v9) = outNorm (m ((c : Thread nD τ).loc main_arg6)) := by
  show StableHlo.after hostOps1 (W6 m ρ c) _ = _
  after_results_simp
  exact W6_v9 m ρ c

theorem W7_v10 : W7 m ρ c (Proc.devRef .tc main_v10) = inNorm (m ((c : Thread nD τ).loc main_arg7)) := by
  show StableHlo.after hostOps1 (W6 m ρ c) _ = _
  after_results_simp
  exact W6_v10 m ρ c

theorem W7_v22 : W7 m ρ c (Proc.devRef .tc main_v22) = scatterDst (m ((c : Thread nD τ).loc main_arg7)) (gatherSrc (m ((c : Thread nD τ).loc main_arg6)) (proj1 m c)) := by
  show StableHlo.after hostOps1 (W6 m ρ c) _ = _
  after_results_simp
  rw [W6_v12, W6_arg6, W6_arg7]

theorem W7_v23 : W7 m ρ c (Proc.devRef .tc main_v23) = col (inNorm (m ((c : Thread nD τ).loc main_arg7))) := by
  show StableHlo.after hostOps1 (W6 m ρ c) _ = _
  after_results_simp
  rw [W6_v10]

theorem W7_v24 : W7 m ρ c (Proc.devRef .tc main_v24) = rowOf (m ((c : Thread nD τ).loc main_arg3)) := by
  show StableHlo.after hostOps1 (W6 m ρ c) _ = _
  after_results_simp
  rw [W6_arg3]
  rfl

/-! ## The second launch and the stretch after it -/

theorem W8_v25 : W8 m ρ c (Proc.devRef .tc main_v25) = hidden m c := by
  refine (W8_arr m ρ c 3).trans ?_
  refine (Cert.KernelIdeal.NormBiasRelu1.value (V7 m ρ) c).trans ?_
  show Cert.Spec.normBiasRelu (W7 m ρ c (Proc.devRef .tc main_v22)) (W7 m ρ c (Proc.devRef .tc main_v23)) (W7 m ρ c (Proc.devRef .tc main_v24)) = _
  rw [W7_v22, W7_v23, W7_v24]

theorem W8_arg1 : W8 m ρ c (Proc.devRef .tc main_arg1) = m ((c : Thread nD τ).loc main_arg1) :=
  (W8_of_ne m ρ c main_arg1 (by decide)).trans (W7_arg1 m ρ c)

theorem W8_arg4 : W8 m ρ c (Proc.devRef .tc main_arg4) = m ((c : Thread nD τ).loc main_arg4) :=
  (W8_of_ne m ρ c main_arg4 (by decide)).trans (W7_arg4 m ρ c)

theorem W8_arg5 : W8 m ρ c (Proc.devRef .tc main_arg5) = m ((c : Thread nD τ).loc main_arg5) :=
  (W8_of_ne m ρ c main_arg5 (by decide)).trans (W7_arg5 m ρ c)

theorem W8_arg6 : W8 m ρ c (Proc.devRef .tc main_arg6) = m ((c : Thread nD τ).loc main_arg6) :=
  (W8_of_ne m ρ c main_arg6 (by decide)).trans (W7_arg6 m ρ c)

theorem W8_arg7 : W8 m ρ c (Proc.devRef .tc main_arg7) = m ((c : Thread nD τ).loc main_arg7) :=
  (W8_of_ne m ρ c main_arg7 (by decide)).trans (W7_arg7 m ρ c)

theorem W8_v9 : W8 m ρ c (Proc.devRef .tc main_v9) = outNorm (m ((c : Thread nD τ).loc main_arg6)) :=
  (W8_of_ne m ρ c main_v9 (by decide)).trans (W7_v9 m ρ c)

theorem W8_v10 : W8 m ρ c (Proc.devRef .tc main_v10) = inNorm (m ((c : Thread nD τ).loc main_arg7)) :=
  (W8_of_ne m ρ c main_v10 (by decide)).trans (W7_v10 m ρ c)

theorem W9_arg1 : W9 m ρ c (Proc.devRef .tc main_arg1) = m ((c : Thread nD τ).loc main_arg1) := by
  show StableHlo.after hostOps2 (W8 m ρ c) _ = _
  after_results_simp
  exact W8_arg1 m ρ c

theorem W9_arg4 : W9 m ρ c (Proc.devRef .tc main_arg4) = m ((c : Thread nD τ).loc main_arg4) := by
  show StableHlo.after hostOps2 (W8 m ρ c) _ = _
  after_results_simp
  exact W8_arg4 m ρ c

theorem W9_arg5 : W9 m ρ c (Proc.devRef .tc main_arg5) = m ((c : Thread nD τ).loc main_arg5) := by
  show StableHlo.after hostOps2 (W8 m ρ c) _ = _
  after_results_simp
  exact W8_arg5 m ρ c

theorem W9_arg6 : W9 m ρ c (Proc.devRef .tc main_arg6) = m ((c : Thread nD τ).loc main_arg6) := by
  show StableHlo.after hostOps2 (W8 m ρ c) _ = _
  after_results_simp
  exact W8_arg6 m ρ c

theorem W9_arg7 : W9 m ρ c (Proc.devRef .tc main_arg7) = m ((c : Thread nD τ).loc main_arg7) := by
  show StableHlo.after hostOps2 (W8 m ρ c) _ = _
  after_results_simp
  exact W8_arg7 m ρ c

theorem W9_v10 : W9 m ρ c (Proc.devRef .tc main_v10) = inNorm (m ((c : Thread nD τ).loc main_arg7)) := by
  show StableHlo.after hostOps2 (W8 m ρ c) _ = _
  after_results_simp
  exact W8_v10 m ρ c

theorem W9_v25 : W9 m ρ c (Proc.devRef .tc main_v25) = hidden m c := by
  show StableHlo.after hostOps2 (W8 m ρ c) _ = _
  after_results_simp
  exact W8_v25 m ρ c

theorem W9_v26 : W9 m ρ c (Proc.devRef .tc main_v26) = col (outNorm (m ((c : Thread nD τ).loc main_arg6))) := by
  show StableHlo.after hostOps2 (W8 m ρ c) _ = _
  after_results_simp
  rw [W8_v9]

/-! ## The third launch and the stretch after it -/

theorem W10_v27 : W10 m ρ c (Proc.devRef .tc main_v27) = proj2 m c := by
  refine (W10_arr m ρ c 3).trans ?_
  refine (Cert.KernelIdeal.ScaledProject2.value (V9 m ρ) c).trans ?_
  show Cert.Spec.scaledProject (W9 m ρ c (Proc.devRef .tc main_v25)) (W9 m ρ c (Proc.devRef .tc main_v26)) (W9 m ρ c (Proc.devRef .tc main_arg4)) = _
  rw [W9_v25, W9_v26, W9_arg4]

theorem W10_arg1 : W10 m ρ c (Proc.devRef .tc main_arg1) = m ((c : Thread nD τ).loc main_arg1) :=
  (W10_of_ne m ρ c main_arg1 (by decide)).trans (W9_arg1 m ρ c)

theorem W10_arg5 : W10 m ρ c (Proc.devRef .tc main_arg5) = m ((c : Thread nD τ).loc main_arg5) :=
  (W10_of_ne m ρ c main_arg5 (by decide)).trans (W9_arg5 m ρ c)

theorem W10_arg6 : W10 m ρ c (Proc.devRef .tc main_arg6) = m ((c : Thread nD τ).loc main_arg6) :=
  (W10_of_ne m ρ c main_arg6 (by decide)).trans (W9_arg6 m ρ c)

theorem W10_arg7 : W10 m ρ c (Proc.devRef .tc main_arg7) = m ((c : Thread nD τ).loc main_arg7) :=
  (W10_of_ne m ρ c main_arg7 (by decide)).trans (W9_arg7 m ρ c)

theorem W10_v10 : W10 m ρ c (Proc.devRef .tc main_v10) = inNorm (m ((c : Thread nD τ).loc main_arg7)) :=
  (W10_of_ne m ρ c main_v10 (by decide)).trans (W9_v10 m ρ c)

theorem W11_arg1 : W11 m ρ c (Proc.devRef .tc main_arg1) = m ((c : Thread nD τ).loc main_arg1) := by
  show StableHlo.after hostOps3 (W10 m ρ c) _ = _
  after_results_simp
  exact W10_arg1 m ρ c

theorem W11_arg6 : W11 m ρ c (Proc.devRef .tc main_arg6) = m ((c : Thread nD τ).loc main_arg6) := by
  show StableHlo.after hostOps3 (W10 m ρ c) _ = _
  after_results_simp
  exact W10_arg6 m ρ c

theorem W11_arg7 : W11 m ρ c (Proc.devRef .tc main_arg7) = m ((c : Thread nD τ).loc main_arg7) := by
  show StableHlo.after hostOps3 (W10 m ρ c) _ = _
  after_results_simp
  exact W10_arg7 m ρ c

theorem W11_v37 : W11 m ρ c (Proc.devRef .tc main_v37) = scatterDst (m ((c : Thread nD τ).loc main_arg7)) (gatherSrc (m ((c : Thread nD τ).loc main_arg6)) (proj2 m c)) := by
  show StableHlo.after hostOps3 (W10 m ρ c) _ = _
  after_results_simp
  rw [W10_v27, W10_arg6, W10_arg7]

theorem W11_v38 : W11 m ρ c (Proc.devRef .tc main_v38) = col (inNorm (m ((c : Thread nD τ).loc main_arg7))) := by
  show StableHlo.after hostOps3 (W10 m ρ c) _ = _
  after_results_simp
  rw [W10_v10]

theorem W11_v39 : W11 m ρ c (Proc.devRef .tc main_v39) = rowOf (m ((c : Thread nD τ).loc main_arg5)) := by
  show StableHlo.after hostOps3 (W10 m ρ c) _ = _
  after_results_simp
  rw [W10_arg5]
  rfl

/-! ## The fourth launch and the stretch after it -/

theorem W12_v40 : W12 m ρ c (Proc.devRef .tc main_v40) = out2 m c := by
  refine (W12_arr m ρ c 3).trans ?_
  refine (Cert.KernelIdeal.NormBias3.value (V11 m ρ) c).trans ?_
  show Cert.Spec.normBias (W11 m ρ c (Proc.devRef .tc main_v37)) (W11 m ρ c (Proc.devRef .tc main_v38)) (W11 m ρ c (Proc.devRef .tc main_v39)) = _
  rw [W11_v37, W11_v38, W11_v39]

theorem W12_arg1 : W12 m ρ c (Proc.devRef .tc main_arg1) = m ((c : Thread nD τ).loc main_arg1) :=
  (W12_of_ne m ρ c main_arg1 (by decide)).trans (W11_arg1 m ρ c)

theorem W12_arg6 : W12 m ρ c (Proc.devRef .tc main_arg6) = m ((c : Thread nD τ).loc main_arg6) :=
  (W12_of_ne m ρ c main_arg6 (by decide)).trans (W11_arg6 m ρ c)

theorem W12_arg7 : W12 m ρ c (Proc.devRef .tc main_arg7) = m ((c : Thread nD τ).loc main_arg7) :=
  (W12_of_ne m ρ c main_arg7 (by decide)).trans (W11_arg7 m ρ c)

theorem W13_arg1 : W13 m ρ c (Proc.devRef .tc main_arg1) = m ((c : Thread nD τ).loc main_arg1) := by
  show StableHlo.after hostOps4 (W12 m ρ c) _ = _
  after_results_simp
  exact W12_arg1 m ρ c

theorem W13_arg7 : W13 m ρ c (Proc.devRef .tc main_arg7) = m ((c : Thread nD τ).loc main_arg7) := by
  show StableHlo.after hostOps4 (W12 m ρ c) _ = _
  after_results_simp
  exact W12_arg7 m ρ c

theorem W13_v47 : W13 m ρ c (Proc.devRef .tc main_v47) = gatherSrc (m ((c : Thread nD τ).loc main_arg6)) (out2 m c) := by
  show StableHlo.after hostOps4 (W12 m ρ c) _ = _
  after_results_simp
  rw [W12_v40, W12_arg6]

/-! ## The fifth launch and the last stretch -/

theorem W14_v48 : W14 m ρ c (Proc.devRef .tc main_v48) = messages m c := by
  refine (W14_arr m ρ c 2).trans ?_
  refine (Cert.KernelIdeal.EdgeScale4.value (V13 m ρ) c).trans ?_
  show Cert.Spec.edgeScale (W13 m ρ c (Proc.devRef .tc main_v47)) (W13 m ρ c (Proc.devRef .tc main_arg1)) = _
  rw [W13_v47, W13_arg1]

theorem W14_arg7 : W14 m ρ c (Proc.devRef .tc main_arg7) = m ((c : Thread nD τ).loc main_arg7) :=
  (W14_of_ne m ρ c main_arg7 (by decide)).trans (W13_arg7 m ρ c)

/-- The result buffer after the whole program. -/
theorem W15_v51 : W15 m ρ c (Proc.devRef .tc main_v51) = result m c := by
  show StableHlo.after hostOps5 (W14 m ρ c) _ = _
  after_results_simp
  rw [W14_v48, W14_arg7]

end Cert.KernelIdeal.Chain

end
-- ==== Proof.RefStages.lean ====
/-
  The reference's own spelling of each stage, as host operations on whole arrays, is the stage's index-by-index
  function: a product with a broadcast column then a dot product over the feature axis is `scaledProject`; a product
  with a broadcast column plus a broadcast row is `normBias` (under a maximum with the zero splat, `normBiasRelu`);
  a product with a broadcast per-edge column is `edgeScale`.
-/
import proofs.«122795_j7765300871331_1_alg».proof.Proof.Gen.ReferenceIdeal.Run
import proofs.«122795_j7765300871331_1_alg».proof.Proof.Gen.ReferenceIdeal.Read
import proofs.«122795_j7765300871331_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem

/-- A per-node column broadcast along the feature axis, read at (r, c), is the column's entry (r, 0). -/
theorem nodeCol_broadcast_apply (n : FVec Ideal S65536x1 .f32) (i : S65536x128.Idx) :
    broadcastInDim S65536x128 ![0, 1] bcast_S65536x1_S65536x128_0_1 n i
      = n (Cert.Spec.nodeColIx (Cert.Spec.nodeRow i)) :=
  broadcastInDim_apply _ bcast_S65536x1_S65536x128_0_1 n i (Cert.Spec.nodeColIx (Cert.Spec.nodeRow i)) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

/-- A bias row broadcast along the node axis, read at (r, c), is the row's entry (0, c). -/
theorem biasRow_broadcast_apply (b : FVec Ideal S1x128 .f32) (i : S65536x128.Idx) :
    broadcastInDim S65536x128 ![0, 1] bcast_S1x128_S65536x128_0_1 b i
      = b (Cert.Spec.biasIx (Cert.Spec.nodeLane i)) :=
  broadcastInDim_apply _ bcast_S1x128_S65536x128_0_1 b i (Cert.Spec.biasIx (Cert.Spec.nodeLane i)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The zero splat read at any index is the extended real the zero word encodes. -/
theorem zeroSplat_apply (i : S65536x128.Idx) :
    broadcastInDim S65536x128 ![] bcast_S_S65536x128 (constant (F := Ideal) S_ .f32 0x00000000#32) i
      = Ideal.ofBits .f32 0x00000000#32 :=
  broadcastInDim_apply _ bcast_S_S65536x128 (constant (F := Ideal) S_ .f32 0x00000000#32) i (fun a => a.elim0) (fun a => a.elim0)

/-- A bias vector broadcast into a one-row matrix along its second axis is the bias row. -/
theorem biasRow_eq (b : FVec Ideal S128 .f32) :
    broadcastInDim S1x128 ![1] bcast_S128_S1x128_1 b = Cert.Spec.biasRow b := by
  funext i
  unfold Cert.Spec.biasRow
  exact broadcastInDim_apply _ bcast_S128_S1x128_1 b i (ValueIdx.ix1 (⟨(i 1).val, (i 1).isLt⟩ : Fin 128)) (fun a => match a with
    | ⟨0, _⟩ => by show (i 1).val = if (128 : Nat) = 1 then 0 else (i 1).val; rw [if_neg (by decide)])

/-- Rows scaled by a broadcast column, then contracted with the weights over the feature axis. -/
theorem scaledProject_eq (x : FVec Ideal S65536x128 .f32) (n : FVec Ideal S65536x1 .f32) (w : FVec Ideal S128x128 .f32) :
    Host.dotGeneral dot_S65536x128_S128x128_S65536x128_1_0_0_1_n_n none
        (mulf x (broadcastInDim S65536x128 ![0, 1] bcast_S65536x1_S65536x128_0_1 n)) w
      = Cert.Spec.scaledProject x n w := by
  funext i
  unfold Cert.Spec.scaledProject
  simp only [Host.dotGeneral]
  rw [Ideal.dotGeneral_apply, ← Equiv.sum_comp (ValueIdx.contrEquiv1 dot_S65536x128_S128x128_S65536x128_1_0_0_1_n_n 128 rfl rfl).symm]
  refine Finset.sum_congr rfl fun k _ => ?_
  have hk := ValueIdx.contrEquiv1_symm_val dot_S65536x128_S128x128_S65536x128_1_0_0_1_n_n 128 rfl rfl k
  -- the left operand is read at (row of i, k) ...
  have el : dot_S65536x128_S128x128_S65536x128_1_0_0_1_n_n.lhsIdx i ((ValueIdx.contrEquiv1 dot_S65536x128_S128x128_S65536x128_1_0_0_1_n_n 128 rfl rfl).symm k)
      = Cert.Spec.nodeIx (Cert.Spec.nodeRow i) k := funext fun a => Fin.ext (by
    match a with
    | ⟨0, _⟩ => exact Cert.ReferenceIdeal.Read.lhs_main_v14_0 _ _
    | ⟨1, _⟩ => exact (Cert.ReferenceIdeal.Read.lhs_main_v14_1 _ _).trans hk)
  -- ... and the weights at (k, column of i)
  have er : dot_S65536x128_S128x128_S65536x128_1_0_0_1_n_n.rhsIdx i ((ValueIdx.contrEquiv1 dot_S65536x128_S128x128_S65536x128_1_0_0_1_n_n 128 rfl rfl).symm k)
      = Cert.Spec.weightIx k (Cert.Spec.nodeLane i) := funext fun a => Fin.ext (by
    match a with
    | ⟨0, _⟩ => exact (Cert.ReferenceIdeal.Read.rhs_main_v14_0 _ _).trans hk
    | ⟨1, _⟩ => exact Cert.ReferenceIdeal.Read.rhs_main_v14_1 _ _)
  rw [el, er, ValueIdx.mulf_apply, nodeCol_broadcast_apply]

/-- Rows scaled by a broadcast column, plus a broadcast row. -/
theorem normBias_eq (a : FVec Ideal S65536x128 .f32) (n : FVec Ideal S65536x1 .f32) (b : FVec Ideal S1x128 .f32) :
    addf (mulf a (broadcastInDim S65536x128 ![0, 1] bcast_S65536x1_S65536x128_0_1 n))
        (broadcastInDim S65536x128 ![0, 1] bcast_S1x128_S65536x128_0_1 b)
      = Cert.Spec.normBias a n b := by
  funext i
  unfold Cert.Spec.normBias
  rw [ValueIdx.addf_apply, ValueIdx.mulf_apply, nodeCol_broadcast_apply, biasRow_broadcast_apply]

/-- The same under a maximum with the zero splat. -/
theorem normBiasRelu_eq (a : FVec Ideal S65536x128 .f32) (n : FVec Ideal S65536x1 .f32) (b : FVec Ideal S1x128 .f32) :
    maximumf (addf (mulf a (broadcastInDim S65536x128 ![0, 1] bcast_S65536x1_S65536x128_0_1 n))
        (broadcastInDim S65536x128 ![0, 1] bcast_S1x128_S65536x128_0_1 b))
        (broadcastInDim S65536x128 ![] bcast_S_S65536x128 (constant S_ .f32 0x00000000#32))
      = Cert.Spec.normBiasRelu a n b := by
  funext i
  unfold Cert.Spec.normBiasRelu
  rw [ValueIdx.maximumf_apply, ValueIdx.addf_apply, ValueIdx.mulf_apply, nodeCol_broadcast_apply, biasRow_broadcast_apply,
    zeroSplat_apply]

/-- Per-edge rows scaled by a broadcast per-edge column. -/
theorem edgeScale_eq (g : FVec Ideal S1048576x128 .f32) (e : FVec Ideal S1048576x1 .f32) :
    mulf g (broadcastInDim S1048576x128 ![0, 1] bcast_S1048576x1_S1048576x128_0_1 e) = Cert.Spec.edgeScale g e := by
  funext i
  unfold Cert.Spec.edgeScale
  rw [ValueIdx.mulf_apply]
  -- the broadcast column read at (r, c) is the column's entry (r, 0)
  exact congrArg (g i * ·) (broadcastInDim_apply _ bcast_S1048576x1_S1048576x128_0_1 e i
    (Cert.Spec.edgeColIx (Cert.Spec.edgeRow i)) (fun a => match a with
      | ⟨0, _⟩ => by show (i 0).val = if (1048576 : Nat) = 1 then 0 else (i 0).val; rw [if_neg (by decide)]
      | ⟨1, _⟩ => by show 0 = if (1 : Nat) = 1 then 0 else (i 1).val; rw [if_pos rfl]))

end Cert.ReferenceIdeal.Stages

end
-- ==== Proof.RefResult.lean ====
/-
  The reference's result as the same composition the kernel's program has: the degree factors, the index columns,
  the gathers and the scatter-adds spelt as the reference's host operations spell them, around the four stages. The
  reference's run is that composition at its own spelling of each stage (for any float instance: nothing is
  computed), and each of those spellings is the stage's index-by-index function on the extended reals.
-/
import proofs.«122795_j7765300871331_1_alg».proof.Proof.Gen.ReferenceIdeal.Run
import proofs.«122795_j7765300871331_1_alg».proof.Proof.RefStages
import proofs.«122795_j7765300871331_1_alg».proof.Proof.Spec

set_option maxRecDepth 16384

noncomputable section

namespace Cert.ReferenceIdeal.Composed

open Cert.ReferenceIdeal Cert.ReferenceIdeal.Gen Idealize.ShloMosaic Idealize.ShloMosaic.TcCoe Idealize.SL.Sem Idealize.ShloMosaic.StableHlo

section Shared

variable {F : FTy → Type} [FloatOps F]

/-! ## The shared pieces, as the host operations spell them -/

/-- A degree factor: the reciprocal square root of the count of edges at each node (a scatter-add of ones at the
    edges' end nodes `e`), clamped below at one. -/
abbrev degNorm (e : (⟨S1048576, .i32⟩ : BufTy).Contents (Elt F)) : (⟨S65536, .f32⟩ : BufTy).Contents (Elt F) :=
  Host.rsqrt (maximumf (broadcastInDim S65536 ![] bcast_S_S65536 (id (constant S_ .f32 0x3F800000#32))) (Host.scatterAdd scatter_S65536_S1048576x1_S1048576_n_0_0_1 (broadcastInDim S65536 ![] bcast_S_S65536 (constant S_ .f32 0x00000000#32)) (broadcastInDim S1048576x1 ![0] bcast_S1048576_S1048576x1_0 e) (broadcastInDim S1048576 ![] bcast_S_S1048576 (constant S_ .f32 0x3F800000#32))))

/-- The out-degree factor, from the edges' sources. -/
abbrev outNorm (src : (⟨S1048576, .i32⟩ : BufTy).Contents (Elt F)) : (⟨S65536, .f32⟩ : BufTy).Contents (Elt F) := degNorm src
/-- The in-degree factor, from the edges' destinations. -/
abbrev inNorm (dst : (⟨S1048576, .i32⟩ : BufTy).Contents (Elt F)) : (⟨S65536, .f32⟩ : BufTy).Contents (Elt F) := degNorm dst

/-- A per-node factor as a column. -/
abbrev col (v : (⟨S65536, .f32⟩ : BufTy).Contents (Elt F)) : (⟨S65536x1, .f32⟩ : BufTy).Contents (Elt F) :=
  broadcastInDim S65536x1 ![0] bcast_S65536_S65536x1_0 v

/-- The source node of every edge, a negative index wrapped by the node count, as an index column. -/
abbrev srcIdx (src : (⟨S1048576, .i32⟩ : BufTy).Contents (Elt F)) : (⟨S1048576x1, .i32⟩ : BufTy).Contents (Elt F) :=
  broadcastInDim S1048576x1 ![0] bcast_S1048576_S1048576x1_0 (select (cmpi .slt src (broadcastInDim S1048576 ![] bcast_S_S1048576 (constantI S_ 32 0#32))) (addi src (broadcastInDim S1048576 ![] bcast_S_S1048576 (constantI S_ 32 65536#32))) src)

/-- The rows of a node array gathered along the edges' sources. -/
abbrev gatherSrc (src : (⟨S1048576, .i32⟩ : BufTy).Contents (Elt F)) (h : (⟨S65536x128, .f32⟩ : BufTy).Contents (Elt F)) : (⟨S1048576x128, .f32⟩ : BufTy).Contents (Elt F) :=
  Host.gather gather_S65536x128_S1048576x1_S1048576x128_1_0_n_n_0_1_1128 h (srcIdx src)

/-- Per-edge rows summed at the edges' destinations, from zero. -/
abbrev scatterDst (dst : (⟨S1048576, .i32⟩ : BufTy).Contents (Elt F)) (u : (⟨S1048576x128, .f32⟩ : BufTy).Contents (Elt F)) : (⟨S65536x128, .f32⟩ : BufTy).Contents (Elt F) :=
  Host.scatterAdd scatter_S65536x128_S1048576x1_S1048576x128_1_0_0_1 (broadcastInDim S65536x128 ![] bcast_S_S65536x128 (constant S_ .f32 0x00000000#32)) (broadcastInDim S1048576x1 ![0] bcast_S1048576_S1048576x1_0 dst) u

/-! ## The whole composition, over any stage functions

The program's result as a function of the eight argument arrays, with the four stages and the layout of a bias as
parameters: what the kernel's program and the reference's share, whatever the stages compute. -/

/-- Features, edge weights, the two layers' weights and biases, the edges' sources and destinations; then the
    stage functions. -/
abbrev resultWith (feat : (⟨S65536x128, .f32⟩ : BufTy).Contents (Elt F)) (ew : (⟨S1048576x1, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (src dst : (⟨S1048576, .i32⟩ : BufTy).Contents (Elt F))
    (project : FVec F S65536x128 .f32 → FVec F S65536x1 .f32 → FVec F S128x128 .f32 → FVec F S65536x128 .f32)
    (normClamp norm : FVec F S65536x128 .f32 → FVec F S65536x1 .f32 → FVec F S1x128 .f32 → FVec F S65536x128 .f32)
    (weigh : FVec F S1048576x128 .f32 → FVec F S1048576x1 .f32 → FVec F S1048576x128 .f32)
    (row : FVec F S128 .f32 → FVec F S1x128 .f32) : (⟨S65536x128, .f32⟩ : BufTy).Contents (Elt F) :=
  scatterDst dst (weigh (gatherSrc src (norm (scatterDst dst (gatherSrc src (project (normClamp (scatterDst dst (gatherSrc src (project feat (col (outNorm src)) w1))) (col (inNorm dst)) (row b1)) (col (outNorm src)) w2))) (col (inNorm dst)) (row b2))) ew)

variable (m : (ℓ : Loc nD τ sig) → Buf (Elt F) ℓ) (c : Dev nD)

/-- The run's term for the result IS the composition, at the reference's own host operations for each stage: the
    two sides are the same operations on the same arrays. -/
theorem res_eq_resultWith :
    Value.res_main_v63 (F := F) m c
      = resultWith (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (fun x n w => Host.dotGeneral dot_S65536x128_S128x128_S65536x128_1_0_0_1_n_n none (mulf x (broadcastInDim S65536x128 ![0, 1] bcast_S65536x1_S65536x128_0_1 n)) w)
          (fun a n b => maximumf (addf (mulf a (broadcastInDim S65536x128 ![0, 1] bcast_S65536x1_S65536x128_0_1 n)) (broadcastInDim S65536x128 ![0, 1] bcast_S1x128_S65536x128_0_1 b)) (broadcastInDim S65536x128 ![] bcast_S_S65536x128 (constant S_ .f32 0x00000000#32)))
          (fun a n b => addf (mulf a (broadcastInDim S65536x128 ![0, 1] bcast_S65536x1_S65536x128_0_1 n)) (broadcastInDim S65536x128 ![0, 1] bcast_S1x128_S65536x128_0_1 b))
          (fun g e => mulf g (broadcastInDim S1048576x128 ![0, 1] bcast_S1048576x1_S1048576x128_0_1 e))
          (fun b => broadcastInDim S1x128 ![1] bcast_S128_S1x128_1 b) := by
  unfold Value.res_main_v63
  rfl

end Shared

variable (m : (ℓ : Loc nD τ sig) → Buf (Elt Ideal) ℓ) (c : Dev nD)

/-- On the extended reals the reference's result is the composition at the four stage functions and the bias row. -/
theorem res_eq :
    Value.res_main_v63 (F := Ideal) m c
      = resultWith (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          Cert.Spec.scaledProject Cert.Spec.normBiasRelu Cert.Spec.normBias Cert.Spec.edgeScale Cert.Spec.biasRow := by
  refine (res_eq_resultWith m c).trans ?_
  have e1 : (fun (x : FVec Ideal S65536x128 .f32) (n : FVec Ideal S65536x1 .f32) (w : FVec Ideal S128x128 .f32) => Host.dotGeneral dot_S65536x128_S128x128_S65536x128_1_0_0_1_n_n none (mulf x (broadcastInDim S65536x128 ![0, 1] bcast_S65536x1_S65536x128_0_1 n)) w) = Cert.Spec.scaledProject :=
    funext fun x => funext fun n => funext fun w => Stages.scaledProject_eq x n w
  have e2 : (fun (a : FVec Ideal S65536x128 .f32) (n : FVec Ideal S65536x1 .f32) (b : FVec Ideal S1x128 .f32) => maximumf (addf (mulf a (broadcastInDim S65536x128 ![0, 1] bcast_S65536x1_S65536x128_0_1 n)) (broadcastInDim S65536x128 ![0, 1] bcast_S1x128_S65536x128_0_1 b)) (broadcastInDim S65536x128 ![] bcast_S_S65536x128 (constant (F := Ideal) S_ .f32 0x00000000#32))) = Cert.Spec.normBiasRelu :=
    funext fun a => funext fun n => funext fun b => Stages.normBiasRelu_eq a n b
  have e3 : (fun (a : FVec Ideal S65536x128 .f32) (n : FVec Ideal S65536x1 .f32) (b : FVec Ideal S1x128 .f32) => addf (mulf a (broadcastInDim S65536x128 ![0, 1] bcast_S65536x1_S65536x128_0_1 n)) (broadcastInDim S65536x128 ![0, 1] bcast_S1x128_S65536x128_0_1 b)) = Cert.Spec.normBias :=
    funext fun a => funext fun n => funext fun b => Stages.normBias_eq a n b
  have e4 : (fun (g : FVec Ideal S1048576x128 .f32) (e : FVec Ideal S1048576x1 .f32) => mulf g (broadcastInDim S1048576x128 ![0, 1] bcast_S1048576x1_S1048576x128_0_1 e)) = Cert.Spec.edgeScale :=
    funext fun g => funext fun e => Stages.edgeScale_eq g e
  have e5 : (fun (b : FVec Ideal S128 .f32) => broadcastInDim S1x128 ![1] bcast_S128_S1x128_1 b) = Cert.Spec.biasRow :=
    funext fun b => Stages.biasRow_eq b
  rw [e1, e2, e3, e4, e5]

end Cert.ReferenceIdeal.Composed

end
-- ==== Proof.ResultEq.lean ====
/-
  The two programs' results agree. Both are one composition of the same host operations around the same four stage
  functions (the kernel's launches compute them block by block, the reference spells them as host operations on
  whole arrays), so once the arguments agree nothing is left to compute: the compositions are the same term, and the
  kernel's reshaped bias row is the reference's broadcast one.
-/
import proofs.«122795_j7765300871331_1_alg».proof.Proof.KernelChain
import proofs.«122795_j7765300871331_1_alg».proof.Proof.RefResult
import Idealize.ShloMosaic.Lib.ValueLayout

set_option maxRecDepth 16384

noncomputable section

namespace Cert.Proof.ResultEq

open Idealize.ShloMosaic Idealize.ShloMosaic.TcCoe Idealize.SL.Sem

/-- The composition spelt with the reference's records and shapes is the one spelt with the kernel's: they are the
    same dimension numbers and the same literal shapes (for any float instance and any stage functions). -/
theorem compositions_agree {F : FTy → Type} [FloatOps F]
    (feat : FVec F Cert.KernelIdeal.S65536x128 .f32) (ew : FVec F Cert.KernelIdeal.S1048576x1 .f32)
    (w1 : FVec F Cert.KernelIdeal.S128x128 .f32) (b1 : FVec F Cert.KernelIdeal.S128 .f32)
    (w2 : FVec F Cert.KernelIdeal.S128x128 .f32) (b2 : FVec F Cert.KernelIdeal.S128 .f32)
    (src dst : IVec Cert.KernelIdeal.S1048576 32)
    (project : FVec F Cert.KernelIdeal.S65536x128 .f32 → FVec F Cert.KernelIdeal.S65536x1 .f32 → FVec F Cert.KernelIdeal.S128x128 .f32 → FVec F Cert.KernelIdeal.S65536x128 .f32)
    (normClamp norm : FVec F Cert.KernelIdeal.S65536x128 .f32 → FVec F Cert.KernelIdeal.S65536x1 .f32 → FVec F Cert.KernelIdeal.S1x128 .f32 → FVec F Cert.KernelIdeal.S65536x128 .f32)
    (weigh : FVec F Cert.KernelIdeal.S1048576x128 .f32 → FVec F Cert.KernelIdeal.S1048576x1 .f32 → FVec F Cert.KernelIdeal.S1048576x128 .f32)
    (row : FVec F Cert.KernelIdeal.S128 .f32 → FVec F Cert.KernelIdeal.S1x128 .f32) :
    Cert.ReferenceIdeal.Composed.resultWith (F := F) feat ew w1 b1 w2 b2 src dst project normClamp norm weigh row
      = Cert.KernelIdeal.Chain.resultWith (F := F) feat ew w1 b1 w2 b2 src dst project normClamp norm weigh row := rfl

/-- A bias vector reshaped to one row reads, at (0, c), the vector at c: it is the bias row. -/
theorem rowOf_eq : (Cert.KernelIdeal.Chain.rowOf (F := Ideal)) = Cert.Spec.biasRow := by
  funext b i
  obtain ⟨u, l, rfl⟩ : ∃ (u : Fin 1) (l : Fin 128), i = ValueIdx.ix2 u l := ⟨i 0, i 1, ValueIdx.eq_ix2 i⟩
  exact ValueIdx.shapeCast_a_1a_apply b _ u l

/-- From memories that agree on the eight arguments, the reference's result term is the kernel's result. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v63 (F := Ideal) m' c = Cert.KernelIdeal.Chain.result m c := by
  rw [Cert.ReferenceIdeal.Composed.res_eq, h0, h1, h2, h3, h4, h5, h6, h7, Cert.KernelIdeal.Chain.result_eq_resultWith, rowOf_eq]
  exact compositions_agree _ _ _ _ _ _ _ _ _ _ _ _ _

end Cert.Proof.ResultEq

end
-- ==== Proof.lean ====
/-
  A two-layer graph convolution followed by a weighted message pass, over 65536 nodes with 128 features and 1048576
  edges: the kernel's program computes it with five launches (the two layers' scaled projections on the matrix
  unit, their normalize-and-bias steps, and the per-edge weighting), the reference with host operations on whole
  arrays; the degree factors, the gathers along the edges and the scatter-adds at the destinations are the same host
  operations in both.

  On the extended reals each launch's output array is its stage's index-by-index function of the arrays it read
  (a change of float format is the identity there, a product accumulated from zero is the plain sum over the
  feature axis, and the blocks of rows tile the arrays), and the reference's spelling of each stage is the same
  function. The shared host operations are never opened: with the arguments agreeing, the two results are one term.
  No law that needs finite values is used, so the precondition is never opened. The idealized kernel is the
  kernel's own text read on the extended reals (the ideal pass rewrote nothing).
-/
import proofs.«122795_j7765300871331_1_alg».proof.Defs
import proofs.«122795_j7765300871331_1_alg».proof.Proof.Gen.Kernel
import proofs.«122795_j7765300871331_1_alg».proof.Proof.Gen.Kernel.Frame
import proofs.«122795_j7765300871331_1_alg».proof.Proof.Gen.KernelIdeal
import proofs.«122795_j7765300871331_1_alg».proof.Proof.Gen.KernelIdeal.Frame
import proofs.«122795_j7765300871331_1_alg».proof.Proof.Gen.ReferenceIdeal
import proofs.«122795_j7765300871331_1_alg».proof.Proof.Gen.ReferenceIdeal.Run
import proofs.«122795_j7765300871331_1_alg».proof.Proof.Gen.Pre_finite_inputs
import proofs.«122795_j7765300871331_1_alg».proof.Proof.KernelRun
import proofs.«122795_j7765300871331_1_alg».proof.Proof.KernelChain
import proofs.«122795_j7765300871331_1_alg».proof.Proof.ResultEq
import Idealize.ShloMosaic.Adequacy
import Idealize.ShloMosaic.Init

noncomputable section

namespace Cert.Proof

open Idealize.ShloMosaic Idealize.SL.Sem

/-- Both idealized programs run, and end with equal results: the kernel's program ends with its result buffer at
    the composition of the stages (its run with the result named, then the buffers read boundary by boundary); the
    reference ends at its run's term, which is the same composition once the arguments agree. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Chain.result m c, ?_, ?_⟩
  · exact (θ_run Cert.KernelIdeal.defs _ _).mono
      (fun _ h c => ⟨(h c).1.trans (Cert.KernelIdeal.Chain.W15_v51 m ρ c), (h c).2⟩)
      (Cert.KernelIdeal.Named.run_named (F := Ideal) m ρ)
  · exact (θ_run Cert.ReferenceIdeal.defs _ _).mono
      (fun _ h c => ⟨(h c).1.trans (Cert.Proof.ResultEq.results_agree m m' c (hagree c).1 (hagree c).2.1 (hagree c).2.2.1
          (hagree c).2.2.2.1 (hagree c).2.2.2.2.1 (hagree c).2.2.2.2.2.1 (hagree c).2.2.2.2.2.2.1 (hagree c).2.2.2.2.2.2.2), (h c).2⟩)
      (Cert.ReferenceIdeal.Value.run (F := Ideal) m' ρ')

/-- The three programs run with their arguments unchanged (the kernel's two by their launch-and-segments
    certificates, the reference by its run with the result dropped); the idealization rewrote nothing; and the two
    idealized programs end with equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
